-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S16777216 : Shape := ⟨1, ![16777216]⟩
abbrev S262144 : Shape := ⟨1, ![262144]⟩
abbrev S8192 : Shape := ⟨1, ![8192]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S8192 : S_.BroadcastsInDim S8192 (![] : Fin 0 → Fin S8192.rank)
  reducesTo_S8192_S_d0 : S8192.ReducesTo [0] S_
  bcast_S_S16777216 : S_.BroadcastsInDim S16777216 (![] : Fin 0 → Fin S16777216.rank)
  reducesTo_S16777216_S_d0 : S16777216.ReducesTo [0] S_

variable [Facts]

def fn_part1 {F : FTy → Type} [FloatOps F] (main_arg1 : IVec S16777216 32) (main_v13 : IVec S_ 1) (main_v15 : IVec S16777216 1) (main_c_5 : IVec S_ 32) : IVec S_ 1 :=
  let main_v16 : IVec S16777216 32 := broadcastInDim S16777216 ![] bcast_S_S16777216 main_c_5
  let main_v17 : IVec S16777216 1 := cmpi .slt main_arg1 main_v16
  let main_v18 : IVec S16777216 1 := andi main_v15 main_v17
  let main_c_6 : IVec S_ 1 := constantI S_ 1 1#1
  let main_v19 : IVec S_ 1 := (fun x v => Host.reduce IntOp.andi x v reducesTo_S16777216_S_d0 h_S_) main_v18 main_c_6
  let main_v20 : IVec S_ 1 := andi main_v13 main_v19
  main_v20

def fn {F : FTy → Type} [FloatOps F] (main_arg0 : FVec F S2x2048x2048 .f32) (main_arg1 : IVec S16777216 32) (main_arg2 : FVec F S262144 .f32) (main_arg3 : FVec F S8192 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_c_4 : IVec S_ 32 := constantI S_ 32 0#32
  let main_v14 : IVec S16777216 32 := broadcastInDim S16777216 ![] bcast_S_S16777216 main_c_4
  let main_v15 : IVec S16777216 1 := cmpi .sge main_arg1 main_v14
  let main_c_5 : IVec S_ 32 := constantI S_ 32 16#32
  fn_part1 (F := F) main_arg1 main_v13 main_v15 main_c_5
-- ==== Kernel.lean ====
abbrev S2x2048x2048 : Shape := ⟨3, ![2, 2048, 2048]⟩
abbrev S16777216 : Shape := ⟨1, ![16777216]⟩
abbrev S262144 : Shape := ⟨1, ![262144]⟩
abbrev S8192 : Shape := ⟨1, ![8192]⟩
abbrev S8192x2048 : Shape := ⟨2, ![8192, 2048]⟩
abbrev S8192x32 : Shape := ⟨2, ![8192, 32]⟩
abbrev S512x2048 : Shape := ⟨2, ![512, 2048]⟩
abbrev S512x32 : Shape := ⟨2, ![512, 32]⟩
abbrev S512x32x1 : Shape := ⟨3, ![512, 32, 1]⟩
abbrev S512x32x64 : Shape := ⟨3, ![512, 32, 64]⟩
abbrev S4096x2048 : Shape := ⟨2, ![4096, 2048]⟩
abbrev S1x8192 : Shape := ⟨2, ![1, 8192]⟩
abbrev S4096x8192 : Shape := ⟨2, ![4096, 8192]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩
abbrev S2x2048x8192 : Shape := ⟨3, ![2, 2048, 8192]⟩

abbrev nBuf : Space → Nat
  | .hbm => 12
  | .vmem => 15
  | .smem => 0
  | _ => 0

abbrev bufTy : (tb : Table) → Fin (tcTables nBuf tb) → BufTy
  | .hbm, ⟨0, _⟩ => ⟨S2x2048x2048, .f32⟩
  | .hbm, ⟨1, _⟩ => ⟨S16777216, .i32⟩
  | .hbm, ⟨2, _⟩ => ⟨S262144, .f32⟩
  | .hbm, ⟨3, _⟩ => ⟨S8192, .f32⟩
  | .hbm, ⟨4, _⟩ => ⟨S8192x2048, .i32⟩
  | .hbm, ⟨5, _⟩ => ⟨S8192x32, .f32⟩
  | .hbm, ⟨6, _⟩ => ⟨S8192x2048, .bf16⟩
  | .hbm, ⟨7, _⟩ => ⟨S4096x2048, .f32⟩
  | .hbm, ⟨8, _⟩ => ⟨S4096x2048, .bf16⟩
  | .hbm, ⟨9, _⟩ => ⟨S1x8192, .f32⟩
  | .hbm, ⟨10, _⟩ => ⟨S4096x8192, .f32⟩
  | .hbm, ⟨11, _⟩ => ⟨S2x2048x8192, .f32⟩
  | .local _ .vmem, ⟨0, _⟩ => ⟨S512x2048, .i32⟩
  | .local _ .vmem, ⟨1, _⟩ => ⟨S512x2048, .i32⟩
  | .local _ .vmem, ⟨2, _⟩ => ⟨S512x32, .f32⟩
  | .local _ .vmem, ⟨3, _⟩ => ⟨S512x32, .f32⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S16777216_S8192x2048 : S16777216.ShapeCasts S8192x2048
  shapeCasts_S262144_S8192x32 : S262144.ShapeCasts S8192x32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S512x32_S512x32x1 : S512x32.ShapeCasts S512x32x1
  shapeCasts_S512x32x1_S512x32x1 : S512x32x1.ShapeCasts S512x32x1
  broadcasts_S512x32x1_S512x32x64 : S512x32x1.Broadcasts S512x32x64
  shapeCasts_S512x32x64_S512x2048 : S512x32x64.ShapeCasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2x2048x2048_S4096x2048 : S2x2048x2048.ShapeCasts S4096x2048
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S4096x8192_S2x2048x8192 : S4096x8192.ShapeCasts S2x2048x8192
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .i32 = 32 ∨ (Rect.block (s := S8192x2048) S512x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S8192x32.size a
  hwx0_1 : ∀ i : grid0.Coords, EltTy.bits .f32 = 32 ∨ (Rect.block (s := S8192x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x2048.size a
  hwx1_0 : ∀ i : grid1.Coords, EltTy.bits .bf16 = 32 ∨ (Rect.block (s := S4096x2048) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x2048.size a
  hwx1_1 : ∀ i : grid1.Coords, EltTy.bits .bf16 = 32 ∨ (Rect.block (s := S8192x2048) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S4096x8192.size a
  hwx1_3 : ∀ i : grid1.Coords, EltTy.bits .f32 = 32 ∨ (Rect.block (s := S4096x8192) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S16777216 : Shape := ⟨1, ![16777216]⟩
abbrev S262144 : Shape := ⟨1, ![262144]⟩
abbrev S8192 : Shape := ⟨1, ![8192]⟩
abbrev S16 : Shape := ⟨1, ![16]⟩
abbrev S262144x64 : Shape := ⟨2, ![262144, 64]⟩
abbrev S_ : Shape := ⟨0, ![]⟩
abbrev S262144x64x1 : Shape := ⟨3, ![262144, 64, 1]⟩
abbrev S262144x1 : Shape := ⟨2, ![262144, 1]⟩
abbrev S8192x2048 : Shape := ⟨2, ![8192, 2048]⟩
abbrev S2x2048x8192 : Shape := ⟨3, ![2, 2048, 8192]⟩
abbrev S1x1x8192 : Shape := ⟨3, ![1, 1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S16777216, .i32⟩
  | .hbm, ⟨2, _⟩ => ⟨S262144, .f32⟩
  | .hbm, ⟨3, _⟩ => ⟨S8192, .f32⟩
  | .hbm, ⟨4, _⟩ => ⟨S16, .f32⟩
  | .hbm, ⟨5, _⟩ => ⟨S262144x64, .i32⟩
  | .hbm, ⟨6, _⟩ => ⟨S_, .i32⟩
  | .hbm, ⟨7, _⟩ => ⟨S262144x64, .i32⟩
  | .hbm, ⟨8, _⟩ => ⟨S262144x64, .i1⟩
  | .hbm, ⟨9, _⟩ => ⟨S_, .i32⟩
  | .hbm, ⟨10, _⟩ => ⟨S262144x64, .i32⟩
  | .hbm, ⟨11, _⟩ => ⟨S262144x64, .i32⟩
  | .hbm, ⟨12, _⟩ => ⟨S262144x64, .i32⟩
  | .hbm, ⟨13, _⟩ => ⟨S262144x64x1, .i32⟩
  | .hbm, ⟨14, _⟩ => ⟨S262144x64, .f32⟩
  | .hbm, ⟨15, _⟩ => ⟨S262144x1, .f32⟩
  | .hbm, ⟨16, _⟩ => ⟨S262144x64, .f32⟩
  | .hbm, ⟨17, _⟩ => ⟨S262144x64, .f32⟩
  | .hbm, ⟨18, _⟩ => ⟨S8192x2048, .f32⟩
  | .hbm, ⟨19, _⟩ => ⟨S2x2048x8192, .f32⟩
  | .hbm, ⟨20, _⟩ => ⟨S1x1x8192, .f32⟩
  | .hbm, ⟨21, _⟩ => ⟨S2x2048x8192, .f32⟩
  | .hbm, ⟨22, _⟩ => ⟨S2x2048x8192, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S16777216_S262144x64 : S16777216.ShapeCasts S262144x64
  bcast_S_S262144x64 : S_.BroadcastsInDim S262144x64 (![] : Fin 0 → Fin S262144x64.rank)
  bcast_S262144x64_S262144x64x1_0_1 : S262144x64.BroadcastsInDim S262144x64x1 (![0, 1] : Fin 2 → Fin S262144x64x1.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S8192x2048 : S262144x64.ShapeCasts S8192x2048
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  gather_S16_S262144x64x1_S262144x64_n_0_n_n_0_2_1_wf : GatherDims.WF S16 S262144x64x1 S262144x64 [] [0] [] [0] [] 2 ![1]
  dot_S2x2048x2048_S8192x2048_S2x2048x8192_2_1_01_0_n_n_wf : DotDims.WF S2x2048x2048 S8192x2048 S2x2048x8192 [2] [1] [0, 1] [0] [] []

variable [Facts₀]

def gather_S16_S262144x64x1_S262144x64_n_0_n_n_0_2_1 : GatherDims S16 S262144x64x1 S262144x64 where
  offsetDims := []
  collapsedSliceDims := [0]
  operandBatchingDims := []
  startIndicesBatchingDims := []
  startIndexMap := [0]
  indexVectorDim := 2
  sliceSizes := ![1]
  wf := gather_S16_S262144x64x1_S262144x64_n_0_n_n_0_2_1_wf
def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf

class Facts : Prop extends Facts₀ where

variable [Facts]
-- ==== Proof.KB.Reg0.lean ====
/-
  The first pallas_call (the dequantisation): what its body leaves in its output block as a function of the two input
  blocks, the proof data of its pipeline at any region-entry contents V, and the body obligation.
-/
import proofs.«408300_j9380208575266_3_alg».proof.Proof.Gen.Kernel.Launch
import proofs.«408300_j9380208575266_3_alg».proof.Proof.Gen.Kernel.Skeleton
import proofs.«408300_j9380208575266_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The dequantised block from the block of codes x0 and the block of scales x1: the one store's value. -/
def out0_2 (x0 : Vec F S512x2048 .i32) (x1 : Vec F S512x32 .f32) : Vec F S512x2048 .bf16 :=
  k0_pay1 (k0_pay2 x0) (k0_pay3 x0) (k0_pay4 x0) (k0_pay5 (F := F)) x1

/-- The proof data of pipeline 0 on core c at entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The input windows' buffers hold their blocks -/

/-- The block of codes sits in window 0's current buffer at every point, fetched there or not: an input the body
    leaves in place, never cut and never idle, so an unfetched point finds the block its unchanged index names. -/
theorem codes_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Likewise the block of scales in window 1's current buffer. -/
theorem scales_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem codes_before (c : Dev nD) (t : Fin cfg0.N) (d) : (dat0 V c).before 0 t d = iblk0 V c 0 t :=
  codes_before_of V (dat0 V c) (A_eq0 V c 0) (after0_0 V c) t d

theorem scales_before (c : Dev nD) (t : Fin cfg0.N) (d) : (dat0 V c).before 1 t d = iblk0 V c 1 t :=
  scales_before_of V (dat0 V c) (A_eq0 V c 1) (after0_1 V c) t d

/-! ## The body's triple -/

/-- The whole output buffer as one rectangle: offsets zero, the buffer's own sizes. -/
abbrev whole_out : Rect S512x2048 := Rect.unit (s := S512x2048) ![0, 0] S512x2048.size inb_S512x2048_S512x2048_0_0

/-- The offsets of that rectangle are zero on both axes. -/
theorem whole_out_off : (![0, 0] : Fin S512x2048.rank → ℕ) = fun _ => 0 := by
  funext a; fin_cases a <;> rfl

/-- Likewise for the buffer of scales. -/
theorem scales_off : (![0, 0] : Fin S512x32.rank → ℕ) = fun _ => 0 := by
  funext a; fin_cases a <;> rfl

/-- The one store, through the whole buffer, covers it. -/
theorem whole_out_cover (p : Vec F S512x2048 .bf16) (y : S512x2048.Idx) :
    ∃ pc ∈ ([⟨whole_out, p⟩] : List (View.Piece (Elt F) S512x2048 .bf16)), y ∈ pc.1.set :=
  ⟨_, List.mem_singleton_self _, View.mem_set_unit_zero whole_out_off inb_S512x2048_S512x2048_0_0 y⟩

set_option maxHeartbeats 1000000 in
/-- The dequantisation body on whole staging buffers: the codes at x0, the scales at x1, the output at anything. It
    reads both inputs whole, reads the output once (the value is not used), and stores the dequantised block over the
    whole output; the inputs are left as they were. -/
theorem sound_kernel0 (c : Dev nD) (E : Set ℕ) (i : grid0.Coords)
    (arg1 : Memref sig .tc .vmem S512x2048 .i32) (harg1 : arg1.IsWhole)
    (arg2 : Memref sig .tc .vmem S512x32 .f32) (harg2 : arg2.IsWhole)
    (arg3 : Memref sig .tc .vmem S512x2048 .bf16) (harg3 : arg3.IsWhole)
    (x0 : Vec F S512x2048 .i32) (x1 : Vec F S512x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (whole_out_cover _)]
  rw [View.canon_unit_zero (S := S512x2048) whole_out_off]
  simp only [View.readAt_eq_ld, View.ld_unit_zero (S := S512x2048) whole_out_off, View.ld_unit_zero (S := S512x32) scales_off]
  rfl

/-! ## The body obligation, at a generic point -/

/-- What the body is handed at point t: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks, the output's holds something, so the body's
    triple applies; the invariant and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [codes_before, scales_before]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  The second pallas_call (the matrix product accumulated over the k axis of the grid): the accumulator the kernel keeps in
  its scratch buffer from point to point, the proof data of its pipeline at any region-entry contents V, and the body
  obligation.
-/
import proofs.«408300_j9380208575266_3_alg».proof.Proof.Gen.Kernel.Launch
import proofs.«408300_j9380208575266_3_alg».proof.Proof.Gen.Kernel.Skeleton
import proofs.«408300_j9380208575266_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the kernel accumulates in, as a memref. -/
abbrev scM1 : Memref sig .tc .vmem S1024x2048 .f32 := Memref.whole cc1_scratch0

/-- THE ACCUMULATOR: what the scratch holds after the body at position n. Where the point's k coordinate is 0 (n ≡ 0 mod 4)
    the body resets it to zeros and adds this point's product; elsewhere it adds the product to what point n - 1 left. -/
def acc1 (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => exact rfl
  | succ n => exact (if_pos h0).trans rfl

theorem acc1_step (c : Dev nD) (t : Fin cfg1.N) (h0 : ¬ t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region invariant before position n: before the first point the class's (every scoped buffer that is no staging
    buffer of this call at anything, the generator register at some state); afterwards the same with the scratch at what the
    point before left in it. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

/-- The proof data of pipeline 1 on core c at entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-! ## The body's two conditions over the grid, and where the output window is idle -/

/-- The condition of the body's first conditional, from the grid coordinates: the k coordinate is 0. -/
abbrev cond1_0 (i : grid1.Coords) : Prop :=
  (Scalar.cmpi .ne (Scalar.extui (Scalar.cmpi .eq (BitVec.ofNat 32 (i 2).val) 0#32)) 0#32) = 1#1
/-- The condition of its second: the k coordinate is 3. -/
abbrev cond1_1 (i : grid1.Coords) : Prop := k1_cond2 i = 1#1

/-- The innermost grid axis has extent 4, so the first condition holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- And the second at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle off the last step of the k axis, -/
theorem idleAt1_3 : ∀ t : Fin cfg1.N, ¬ t.val % 4 = 3 → cfg1.idle 3 (grid1.coords t) = true :=
  (by decide +kernel : ∀ t : Fin grid1.N, ¬ t.val % 4 = 3 → cfg1.idle 3 (grid1.coords t) = true)
/-- is not written back there, -/
theorem noFlush1_3 (t : Fin cfg1.N) (h : ¬ t.val % 4 = 3) : (cfg1.win 3).flush t = false :=
  Bool.eq_false_iff.mpr fun hf => h ((flush1_3 t).mp hf)
/-- and is live on it. -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)

/-- The zero offsets of a whole-buffer access, as a constant function. -/
theorem hz1 : (![0, 0] : Fin 2 → Nat) = fun _ => 0 := funext fun a => by fin_cases a <;> rfl

/-- A list of stores into the accumulator's shape whose last-made store is through the whole-shape rectangle covers it. -/
theorem cover_head1 (w : S1024x2048.Idx → Elt F .f32) (L : List (View.Piece (Elt F) S1024x2048 .f32)) (y : S1024x2048.Idx) :
    ∃ p ∈ ((⟨Rect.unit ![0, 0] S1024x2048.size inb_S1024x2048_S1024x2048_0_0, w⟩ : View.Piece (Elt F) S1024x2048 .f32) :: L),
      y ∈ p.1.set :=
  ⟨_, List.mem_cons_self .., View.mem_set_unit_zero hz1 inb_S1024x2048_S1024x2048_0_0 y⟩

/-! ## The body on any whole memrefs, case by case -/

set_option maxHeartbeats 2000000 in
/-- Where k = 0: whatever the scratch holds, the body overwrites it with zeros and then adds the product of the two input
    blocks (contracted over their second axes), so it ends at that product added to zeros; the inputs and the output
    buffer are left as found. -/
theorem run1_A (c : Dev nD) (i : grid1.Coords)
    (arg3 : Memref sig .tc .vmem S1024x512 .bf16) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : cond1_0 i) (hc1 : ¬ cond1_1 i)
    (x0 : Vec F S1024x512 .bf16) (x1 : Vec F S2048x512 .bf16) (x2 : Vec F S1x2048 .f32)
    (x3 : Vec F S1024x2048 .f32) (s : Vec F S1024x2048 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (x3)
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [View.read_writes_eq_canon _ _ _ (cover_head1 _ _)]
  rw [View.canon_cons_unit_zero (S := S1024x2048) hz1, View.readCov_unit_zero (S := S1024x2048) _ hz1]
  simp only [View.readAt_eq_ld, harg3.read_unread, harg4.read_unread,
    View.ld_unit_zero (S := S1024x512) hz1, View.ld_unit_zero (S := S2048x512) hz1]

set_option maxHeartbeats 2000000 in
/-- Where k = 1, 2: the body adds the product of the two input blocks to what the scratch holds; the inputs and the
    output buffer are left as found. -/
theorem run1_B (c : Dev nD) (i : grid1.Coords)
    (arg3 : Memref sig .tc .vmem S1024x512 .bf16) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬ cond1_0 i) (hc1 : ¬ cond1_1 i)
    (x0 : Vec F S1024x512 .bf16) (x1 : Vec F S2048x512 .bf16) (x2 : Vec F S1x2048 .f32)
    (x3 : Vec F S1024x2048 .f32) (s : Vec F S1024x2048 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (x3)
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  rw [View.read_writes_eq_canon _ _ _ (cover_head1 _ _)]
  rw [View.canon_unit_zero hz1]
  simp only [View.readAt_eq_ld, harg3.read_unread, harg4.read_unread, harg7.read_unread,
    View.ld_unit_zero (S := S1024x512) hz1, View.ld_unit_zero (S := S2048x512) hz1, View.ld_unit_zero (S := S1024x2048) hz1]

set_option maxHeartbeats 2000000 in
/-- Where k = 3: the body adds the product to what the scratch holds, and the output buffer receives that sum plus the
    bias row broadcast over the rows, whatever it held. -/
theorem run1_C (c : Dev nD) (i : grid1.Coords)
    (arg3 : Memref sig .tc .vmem S1024x512 .bf16) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬ cond1_0 i) (hc1 : cond1_1 i)
    (x0 : Vec F S1024x512 .bf16) (x1 : Vec F S2048x512 .bf16) (x2 : Vec F S1x2048 .f32)
    (x3 : Vec F S1024x2048 .f32) (s : Vec F S1024x2048 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (k1_pay3 (k1_pay2 x0 x1 s) x2)
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_run_names
    rw [View.read_writes_eq_canon _ _ _ (cover_head1 _ _)]
    rw [View.canon_unit_zero hz1, View.readCov_unit_zero (S := S1024x2048) _ hz1]
    simp only [View.readAt_eq_ld, harg3.read_unread, harg4.read_unread,
      harg5.read_unread, harg7.read_unread, View.ld_unit_zero (S := S1024x512) hz1, View.ld_unit_zero (S := S2048x512) hz1,
      View.ld_unit_zero (S := S1024x2048) hz1, View.ld_unit_zero (S := S1x2048) hz1]
  iexists _; isplitr
  swap; · iexact HS
  ipureintro
  sl_unfold_run_names
  rw [View.read_writes_eq_canon _ _ _ (cover_head1 _ _)]
  rw [View.canon_unit_zero hz1]
  simp only [View.readAt_eq_ld, harg3.read_unread, harg4.read_unread, harg7.read_unread,
    View.ld_unit_zero (S := S1024x512) hz1, View.ld_unit_zero (S := S2048x512) hz1, View.ld_unit_zero (S := S1024x2048) hz1]

/-! ## The invariant, position by position -/

/-- The class invariant with the accumulator's buffer split off the scoped rest: the scratch as a memref owned at
    some contents, every other scoped buffer that is no staging buffer of this call unopened, the generator register. -/
theorem PhiA1_eq (c : Dev nD) :
    (Pipeline.ΦA spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]
          ∗ (∃ r, prngReg c r)) := by
  unfold Pipeline.ΦA
  rw [Pipeline.scopedRest_split_of_list spec1 c [cc1_scratch0] (by decide) (by decide)]
  simp only [bigSepL_singleton, scM1, owns_whole]
  exact Idealize.SL.BI.Entails.antisymm Idealize.SL.BI.sep_assoc Idealize.SL.BI.sep_assoc'

theorem PhiS1_zero (c : Dev nD) (n : ℕ) (h : n ≤ cfg1.N) (hz : n = 0) : PhiS1 V c n h = Pipeline.ΦA spec1 c := by
  subst hz; rfl

/-- After point n (before point n + 1): the accumulator at that point's value. -/
theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the inputs' staging buffers hold when the body runs -/

/-- Each input's current staging buffer holds its block at every point, fetched there or not: where the pipeline does
    not fetch, the block index has not moved since the point before, and the body leaves the inputs as it finds them. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- The bias row's window is fetched only where the k coordinate is 0 and keeps its block over the k axis. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the k coordinate says which of the three cases the point
    is in. Where k = 0 the scratch (at anything at the very first point, at what the point before left afterwards) is reset
    and this point's product added; where k = 1, 2 the product is added to what the point before left; where k = 3 the
    same, and the output block is the accumulator plus the bias row. Off k = 3 the output window is idle and its buffer
    is handed back as found. The invariant takes the scratch back at the accumulator's value at this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · have h1 : ¬ t.val % 4 = 3 := by omega
    rw [Dat.leavesExact_idle (dat1 V c) 3 t (idleAt1_3 t h1) (noFlush1_3 t h1)]
    rw [acc1_reset V c t h0]
    by_cases hz : t.val = 0
    · rw [PhiS1_castSucc V c t, PhiS1_zero V c _ _ hz, PhiA1_eq]
      iintro ⟨⟨⟨%ds, HS⟩, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc1_step V c t h0]
    rw [PhiS1_castSucc V c t, PhiS1_pos V c _ _ hz]
    by_cases h1 : t.val % 4 = 3
    · rw [show (dat1 V c).leavesExact 3 t = owns (c : Thread nD τ) (st1_3 t) fullShare ((dat1 V c).after 3 t) from by
        unfold Dat.leavesExact; rw [liveAt1_3 t h1], after1_3, acc1_step V c t h0]
      iintro ⟨⟨HS, HR, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1)
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, HR, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS]; · iexists _; iexact HS
  isplitl [HR]; · iexact HR
  iexact Hg

end Cert.Kernel.Hand

end
-- ==== Proof.KB.Run.lean ====
/-
  The run of @main: its five items (two reshapes; the dequantisation call; a reshape, a conversion and a reshape; the
  matrix-product call; a reshape), the contents of every buffer of the core at each boundary between items as a fold from the
  launch memory, and the theorem that every weakly fair execution terminates with every unscoped buffer at the last boundary's
  contents.
-/
import proofs.«408300_j9380208575266_3_alg».proof.Proof.KB.Reg0
import proofs.«408300_j9380208575266_3_alg».proof.Proof.KB.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- After the first two reshapes (the dequantisation call's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the dequantisation call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the reshape of x, its conversion and the reshape of the bias (the matrix-product call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the matrix-product call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the last reshape: the contents @main returns with. -/
abbrev W5 : Dev nD → Valuation τ sig (Elt F) := fun c => StableHlo.after hostOps2 (W4 m c)

/-! ## The arguments end as launched -/

/-- Each region's arrays at its exit hold what its pipeline leaves, and every other buffer what it held at the entry. -/
theorem exitArr0 (c : Dev nD) (w : Fin cfg0.W) : (dat0 (V1 m) c).arrAt w cfg0.N = V2 m c (Pipeline.arrRef spec0 w) :=
  (W2_arr m c w).symm
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem exitArr1 (c : Dev nD) (w : Fin cfg1.W) : (dat1 (V3 m) c).arrAt w cfg1.N = V4 m c (Pipeline.arrRef spec1 w) :=
  (W4_arr m c w).symm
theorem exitRest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that no reshape or conversion of @main writes (those write the intermediates 0, 1, 3, 4, 5 and the result 7) and
    that is no array of either call keeps its launch contents through the whole fold: the three host stretches leave it
    (a stretch changes only what it writes) and the two calls bypass it (a call changes only its arrays). -/
theorem W5_of_untouched (c : Dev nD) (b : Ref sig .tc)
    (hw : b ≠ main_v0 ∧ b ≠ main_v1 ∧ b ≠ main_v3 ∧ b ≠ main_v4 ∧ b ≠ main_v5 ∧ b ≠ main_v7)
    (h0 : ∀ w, Pipeline.arrRef spec0 w ≠ b) (h1 : ∀ w, Pipeline.arrRef spec1 w ≠ b) :
    W5 m c (Proc.devRef .tc b) = m ((c : Thread nD τ).loc b) := by
  obtain ⟨n0, n1, n3, n4, n5, n7⟩ := hw
  calc W5 m c (Proc.devRef .tc b)
    _ = W4 m c (Proc.devRef .tc b) := StableHlo.after_of_forall_not_mem (b := Proc.devRef .tc b) _ _ (List.forall_iff_forall_mem.mp (by
          simp only [hostOps2, List.Forall, StableHlo.reshape_writes, Finset.mem_singleton]
          exact StableHlo.devRef_ne_of_ne n7))
    _ = W3 m c (Proc.devRef .tc b) := W4_of_ne m c b h1
    _ = W2 m c (Proc.devRef .tc b) := StableHlo.after_of_forall_not_mem (b := Proc.devRef .tc b) _ _ (List.forall_iff_forall_mem.mp (by
          simp only [hostOps1, List.Forall, StableHlo.reshape_writes, StableHlo.unary_writes, Finset.mem_singleton]
          exact ⟨StableHlo.devRef_ne_of_ne n3, StableHlo.devRef_ne_of_ne n4, StableHlo.devRef_ne_of_ne n5⟩))
    _ = W1 m c (Proc.devRef .tc b) := W2_of_ne m c b h0
    _ = W0 m c (Proc.devRef .tc b) := StableHlo.after_of_forall_not_mem (b := Proc.devRef .tc b) _ _ (List.forall_iff_forall_mem.mp (by
          simp only [hostOps0, List.Forall, StableHlo.reshape_writes, Finset.mem_singleton]
          exact ⟨StableHlo.devRef_ne_of_ne n0, StableHlo.devRef_ne_of_ne n1⟩))
    _ = m ((c : Thread nD τ).loc b) := rfl

theorem W5_main_arg0 (c : Dev nD) : W5 m c (Proc.devRef .tc main_arg0) = m ((c : Thread nD τ).loc main_arg0) :=
  W5_of_untouched m c main_arg0 (by decide) (by decide) (by decide)
theorem W5_main_arg1 (c : Dev nD) : W5 m c (Proc.devRef .tc main_arg1) = m ((c : Thread nD τ).loc main_arg1) :=
  W5_of_untouched m c main_arg1 (by decide) (by decide) (by decide)
theorem W5_main_arg2 (c : Dev nD) : W5 m c (Proc.devRef .tc main_arg2) = m ((c : Thread nD τ).loc main_arg2) :=
  W5_of_untouched m c main_arg2 (by decide) (by decide) (by decide)
theorem W5_main_arg3 (c : Dev nD) : W5 m c (Proc.devRef .tc main_arg3) = m ((c : Thread nD τ).loc main_arg3) :=
  W5_of_untouched m c main_arg3 (by decide) (by decide) (by decide)

/-! ## The run -/

/-! ### The proof data family and the thread state -/

/-- The prefetched tables' admissible contents: neither call has a table. -/
abbrev runAdm : (p : Fin 2) → (pcfgs (F := F) p).Adm := fun p => (cfgs p).toPCfg_adm
/-- Each call's proof data at its entry contents, a literal match on the call's index. -/
def runDats : (p : Fin 2) → (c : Dev nD) → Dat τ (Elt F) Unit ℕ (UR sig nD τ) ℕ (Pipeline.pin (pcfgs (F := F)) runAdm p) c
  | ⟨0, _⟩ => fun c => dat0 (V1 m) c
  | ⟨1, _⟩ => fun c => dat1 (V3 m) c
abbrev runVar : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state and its debts, none. -/
abbrev Rside (c : Dev nD) : sProp 𝕄 := iprop((∃ r, prngReg c r) ∗ ∃ W, owes (c : Thread nD τ) (0 : CellTallies nD τ sig Unit) W)
/-- A host stretch as a segment: from every unscoped buffer at the contents W to the same at the stretch's result from W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ runVar runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

/-- No reshape or conversion allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- The last thread state without the debts: every unscoped buffer at the last boundary's contents, the generator register
    at some state. -/
abbrev Tlast (c : Dev nD) : sProp 𝕄 := iprop(StableHlo.held (c : Thread nD τ) (Pipeline.ucRefs τ sig) (W5 m c) ∗ ∃ r, prngReg c r)

/-- What the last reshape leaves is the last thread state beside the debts: the same resources, regrouped. -/
theorem last_reassoc (c : Dev nD) :
    iprop(StableHlo.held (c : Thread nD τ) (Pipeline.ucRefs τ sig) (W5 m c) ∗ Rside c)
      ⊢ iprop(Tlast m c ∗ ∃ W, owes (c : Thread nD τ) (0 : CellTallies nD τ sig Unit) W) := by
  iintro ⟨Hh, Hp, HO⟩
  isplitl [Hh Hp]
  · isplitl [Hh]; · iexact Hh
    iexact Hp
  iexact HO

/-! ### The two calls as segments -/

set_option backward.isDefEq.respectTransparency.types false in
/-- The dequantisation call over the thread state: entered from every unscoped buffer at W1, left at W2. Its arrays are split
    out of the unscoped buffers and put back at the exit contents; the generator register goes into the class invariant and
    comes out; nothing is owed; the kernel has no semaphore of its own. -/
def region0 : Pipeline.RegionSeg (pcfgs (F := F)) runAdm (runDats m) () defs₀ runVar runL runLv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ runL runLv 0 fun _ _ => rfl
  pre c := iprop(StableHlo.held (c : Thread nD τ) (Pipeline.ucRefs τ sig) (W1 m c) ∗ Rside c)
  post c := iprop(StableHlo.held (c : Thread nD τ) (Pipeline.ucRefs τ sig) (W2 m c) ∗ Rside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) runAdm (runDats m) launch0.win launch0.arr_whole c
      ((runDats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (runDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) runAdm (Ix := Unit) (Name := ℕ) (U := UR sig nD τ) (Lvl := ℕ)
      launch0.win launch0.arr_whole c (runDats m) ((runDats m 0 c).share_full fun _ => rfl)
      (V1 m c) (V2 m c) ((runDats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product call over the thread state: entered from every unscoped buffer at W3, left at W4. As the first call,
    but for its invariant, which names the accumulator from the second point on: the class invariant makes it before the
    first point and it gives the class invariant back after the last. -/
def region1 : Pipeline.RegionSeg (pcfgs (F := F)) runAdm (runDats m) () defs₀ runVar runL runLv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ runL runLv 1 fun _ _ => rfl
  pre c := iprop(StableHlo.held (c : Thread nD τ) (Pipeline.ucRefs τ sig) (W3 m c) ∗ Rside c)
  post c := iprop(StableHlo.held (c : Thread nD τ) (Pipeline.ucRefs τ sig) (W4 m c) ∗ Rside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) runAdm (runDats m) launch1.win launch1.arr_whole c
      ((runDats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (runDats m 1 c).Φ (Fin.last _) = (dat1 (V3 m) c).Φ (Fin.last cfg1.N) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) runAdm (Ix := Unit) (Name := ℕ) (U := UR sig nD τ) (Lvl := ℕ)
      launch1.win launch1.arr_whole c (runDats m) ((runDats m 1 c).share_full fun _ => rfl)
      (V3 m c) (V4 m c) ((runDats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### @main as segments, and the launch -/

/-- @main's five items in order: a host segment per stretch from its boundary's contents, a region per call. -/
abbrev runSegs : List (Pipeline.Seg (pcfgs (F := F)) runAdm (runDats m) () defs₀ runVar runL runLv) :=
  [ .host (hostSeg hostOps0 hostOps0_sub hostOps0_fresh (W0 m)),
    .region (region0 m),
    .host (hostSeg hostOps1 hostOps1_sub hostOps1_fresh (W2 m)),
    .region (region1 m),
    .host (hostSeg hostOps2 hostOps2_sub hostOps2_fresh (W4 m)) ]
/-- @main is the run of the segments: it is the chain of its items, and the segments' run is that chain. -/
theorem main_run (c : Dev nD) : main (F := F) c = Pipeline.Seg.run (runSegs m) := (main_chain c).trans (by chain_rfl)

set_option backward.isDefEq.respectTransparency.types false in
/-- From any memory with zero counters every weakly fair execution of @main terminates, nothing faulting, and every final
    state has each unscoped buffer of each core at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W5 m c b) :=
  Pipeline.θ_run_regions_kit (pcfgs (F := F)) runAdm (runDats m) () cellOf_inj emb₁ defs₀ runVar runL runLv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rside c)) (Tₙ := Tlast m)
    (hch := ⟨fun _ => .rfl, fun _ => .rfl, fun _ => .rfl, fun _ => .rfl, fun _ => .rfl, fun c => last_reassoc m c⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- The run with the result named: the result array at the last boundary's contents, the arguments as launched. -/
theorem run_value : θ_run defs (onTc (τ := τ) (main (F := F))) ⟨m, fun _ => 0, ρ⟩ (fun r => ∀ c : Dev nD,
      r.2.mem ((c.tc : Thread nD τ).loc main_v7) = W5 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Hand

end
-- ==== Proof.KI.Reg0.lean ====
/-
  The first pallas_call (the dequantisation): what its body leaves in its output block as a function of the two input
  blocks, the proof data of its pipeline at any region-entry contents V, and the body obligation.
-/
import proofs.«408300_j9380208575266_3_alg».proof.Proof.Gen.KernelIdeal.Launch
import proofs.«408300_j9380208575266_3_alg».proof.Proof.Gen.KernelIdeal.Skeleton
import proofs.«408300_j9380208575266_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The dequantised block from the block of codes x0 and the block of scales x1: the one store's value. -/
def out0_2 (x0 : Vec F S512x2048 .i32) (x1 : Vec F S512x32 .f32) : Vec F S512x2048 .bf16 :=
  k0_pay1 (k0_pay2 x0) (k0_pay3 x0) (k0_pay4 x0) (k0_pay5 (F := F)) x1

/-- The proof data of pipeline 0 on core c at entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The input windows' buffers hold their blocks -/

/-- The block of codes sits in window 0's current buffer at every point, fetched there or not: an input the body
    leaves in place, never cut and never idle, so an unfetched point finds the block its unchanged index names. -/
theorem codes_before_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Likewise the block of scales in window 1's current buffer. -/
theorem scales_before_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem codes_before (c : Dev nD) (t : Fin cfg0.N) (d) : (dat0 V c).before 0 t d = iblk0 V c 0 t :=
  codes_before_of V (dat0 V c) (A_eq0 V c 0) (after0_0 V c) t d

theorem scales_before (c : Dev nD) (t : Fin cfg0.N) (d) : (dat0 V c).before 1 t d = iblk0 V c 1 t :=
  scales_before_of V (dat0 V c) (A_eq0 V c 1) (after0_1 V c) t d

/-! ## The body's triple -/

/-- The whole output buffer as one rectangle: offsets zero, the buffer's own sizes. -/
abbrev whole_out : Rect S512x2048 := Rect.unit (s := S512x2048) ![0, 0] S512x2048.size inb_S512x2048_S512x2048_0_0

/-- The offsets of that rectangle are zero on both axes. -/
theorem whole_out_off : (![0, 0] : Fin S512x2048.rank → ℕ) = fun _ => 0 := by
  funext a; fin_cases a <;> rfl

/-- Likewise for the buffer of scales. -/
theorem scales_off : (![0, 0] : Fin S512x32.rank → ℕ) = fun _ => 0 := by
  funext a; fin_cases a <;> rfl

/-- The one store, through the whole buffer, covers it. -/
theorem whole_out_cover (p : Vec F S512x2048 .bf16) (y : S512x2048.Idx) :
    ∃ pc ∈ ([⟨whole_out, p⟩] : List (View.Piece (Elt F) S512x2048 .bf16)), y ∈ pc.1.set :=
  ⟨_, List.mem_singleton_self _, View.mem_set_unit_zero whole_out_off inb_S512x2048_S512x2048_0_0 y⟩

set_option maxHeartbeats 1000000 in
/-- The dequantisation body on whole staging buffers: the codes at x0, the scales at x1, the output at anything. It
    reads both inputs whole, reads the output once (the value is not used), and stores the dequantised block over the
    whole output; the inputs are left as they were. -/
theorem sound_kernel0 (c : Dev nD) (E : Set ℕ) (i : grid0.Coords)
    (arg1 : Memref sig .tc .vmem S512x2048 .i32) (harg1 : arg1.IsWhole)
    (arg2 : Memref sig .tc .vmem S512x32 .f32) (harg2 : arg2.IsWhole)
    (arg3 : Memref sig .tc .vmem S512x2048 .bf16) (harg3 : arg3.IsWhole)
    (x0 : Vec F S512x2048 .i32) (x1 : Vec F S512x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton]; unfold k0_part1_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (whole_out_cover _)]
  rw [View.canon_unit_zero (S := S512x2048) whole_out_off]
  simp only [View.readAt_eq_ld, View.ld_unit_zero (S := S512x2048) whole_out_off, View.ld_unit_zero (S := S512x32) scales_off]
  rfl

/-! ## The body obligation, at a generic point -/

/-- What the body is handed at point t: the invariant, the core's dues, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks, the output's holds something, so the body's
    triple applies; the invariant and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [codes_before, scales_before]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second pallas_call (the matrix product accumulated over the k axis of the grid): the accumulator the kernel keeps in
  its scratch buffer from point to point, the proof data of its pipeline at any region-entry contents V, and the body
  obligation.
-/
import proofs.«408300_j9380208575266_3_alg».proof.Proof.Gen.KernelIdeal.Launch
import proofs.«408300_j9380208575266_3_alg».proof.Proof.Gen.KernelIdeal.Skeleton
import proofs.«408300_j9380208575266_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer the kernel accumulates in, as a memref. -/
abbrev scM1 : Memref sig .tc .vmem S1024x2048 .f32 := Memref.whole cc1_scratch0

/-- THE ACCUMULATOR: what the scratch holds after the body at position n. Where the point's k coordinate is 0 (n ≡ 0 mod 4)
    the body resets it to zeros and adds this point's product; elsewhere it adds the product to what point n - 1 left. -/
def acc1 (c : Dev nD) : (n : ℕ) → n < cfg1.N → Vec F S1024x2048 .f32
  | 0, hn => k1_pay2 (iblk1 V c 0 ⟨0, hn⟩) (iblk1 V c 1 ⟨0, hn⟩) (k1_pay1 (F := F))
  | n + 1, hn =>
    if (n + 1) % 4 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => exact rfl
  | succ n => exact (if_pos h0).trans rfl

theorem acc1_step (c : Dev nD) (t : Fin cfg1.N) (h0 : ¬ t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The region invariant before position n: before the first point the class's (every scoped buffer that is no staging
    buffer of this call at anything, the generator register at some state); afterwards the same with the scratch at what the
    point before left in it. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

/-- The proof data of pipeline 1 on core c at entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc1 V c t.val t.isLt) (iblk1 V c 2 t) := by dsimp only [dat1]

/-! ## The body's two conditions over the grid, and where the output window is idle -/

/-- The condition of the body's first conditional, from the grid coordinates: the k coordinate is 0. -/
abbrev cond1_0 (i : grid1.Coords) : Prop :=
  (Scalar.cmpi .ne (Scalar.extui (Scalar.cmpi .eq (BitVec.ofNat 32 (i 2).val) 0#32)) 0#32) = 1#1
/-- The condition of its second: the k coordinate is 3. -/
abbrev cond1_1 (i : grid1.Coords) : Prop := k1_cond2 i = 1#1

/-- The innermost grid axis has extent 4, so the first condition holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- And the second at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle off the last step of the k axis, -/
theorem idleAt1_3 : ∀ t : Fin cfg1.N, ¬ t.val % 4 = 3 → cfg1.idle 3 (grid1.coords t) = true :=
  (by decide +kernel : ∀ t : Fin grid1.N, ¬ t.val % 4 = 3 → cfg1.idle 3 (grid1.coords t) = true)
/-- is not written back there, -/
theorem noFlush1_3 (t : Fin cfg1.N) (h : ¬ t.val % 4 = 3) : (cfg1.win 3).flush t = false :=
  Bool.eq_false_iff.mpr fun hf => h ((flush1_3 t).mp hf)
/-- and is live on it. -/
theorem liveAt1_3 : ∀ t : Fin cfg1.N, t.val % 4 = 3 → cfg1.idle 3 (grid1.coords t) = false :=
  (by decide +kernel : ∀ t : Fin grid1.N, t.val % 4 = 3 → cfg1.idle 3 (grid1.coords t) = false)

/-- The zero offsets of a whole-buffer access, as a constant function. -/
theorem hz1 : (![0, 0] : Fin 2 → Nat) = fun _ => 0 := funext fun a => by fin_cases a <;> rfl

/-- A list of stores into the accumulator's shape whose last-made store is through the whole-shape rectangle covers it. -/
theorem cover_head1 (w : S1024x2048.Idx → Elt F .f32) (L : List (View.Piece (Elt F) S1024x2048 .f32)) (y : S1024x2048.Idx) :
    ∃ p ∈ ((⟨Rect.unit ![0, 0] S1024x2048.size inb_S1024x2048_S1024x2048_0_0, w⟩ : View.Piece (Elt F) S1024x2048 .f32) :: L),
      y ∈ p.1.set :=
  ⟨_, List.mem_cons_self .., View.mem_set_unit_zero hz1 inb_S1024x2048_S1024x2048_0_0 y⟩

/-! ## The body on any whole memrefs, case by case -/

set_option maxHeartbeats 2000000 in
/-- Where k = 0: whatever the scratch holds, the body overwrites it with zeros and then adds the product of the two input
    blocks (contracted over their second axes), so it ends at that product added to zeros; the inputs and the output
    buffer are left as found. -/
theorem run1_A (c : Dev nD) (i : grid1.Coords)
    (arg3 : Memref sig .tc .vmem S1024x512 .bf16) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : cond1_0 i) (hc1 : ¬ cond1_1 i)
    (x0 : Vec F S1024x512 .bf16) (x1 : Vec F S2048x512 .bf16) (x2 : Vec F S1x2048 .f32)
    (x3 : Vec F S1024x2048 .f32) (s : Vec F S1024x2048 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (x3)
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_run_names
  rw [View.read_writes_eq_canon _ _ _ (cover_head1 _ _)]
  rw [View.canon_cons_unit_zero (S := S1024x2048) hz1, View.readCov_unit_zero (S := S1024x2048) _ hz1]
  simp only [View.readAt_eq_ld, harg3.read_unread, harg4.read_unread,
    View.ld_unit_zero (S := S1024x512) hz1, View.ld_unit_zero (S := S2048x512) hz1]

set_option maxHeartbeats 2000000 in
/-- Where k = 1, 2: the body adds the product of the two input blocks to what the scratch holds; the inputs and the
    output buffer are left as found. -/
theorem run1_B (c : Dev nD) (i : grid1.Coords)
    (arg3 : Memref sig .tc .vmem S1024x512 .bf16) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬ cond1_0 i) (hc1 : ¬ cond1_1 i)
    (x0 : Vec F S1024x512 .bf16) (x1 : Vec F S2048x512 .bf16) (x2 : Vec F S1x2048 .f32)
    (x3 : Vec F S1024x2048 .f32) (s : Vec F S1024x2048 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (x3)
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  rw [View.read_writes_eq_canon _ _ _ (cover_head1 _ _)]
  rw [View.canon_unit_zero hz1]
  simp only [View.readAt_eq_ld, harg3.read_unread, harg4.read_unread, harg7.read_unread,
    View.ld_unit_zero (S := S1024x512) hz1, View.ld_unit_zero (S := S2048x512) hz1, View.ld_unit_zero (S := S1024x2048) hz1]

set_option maxHeartbeats 2000000 in
/-- Where k = 3: the body adds the product to what the scratch holds, and the output buffer receives that sum plus the
    bias row broadcast over the rows, whatever it held. -/
theorem run1_C (c : Dev nD) (i : grid1.Coords)
    (arg3 : Memref sig .tc .vmem S1024x512 .bf16) (harg3 : arg3.IsWhole)
    (arg4 : Memref sig .tc .vmem S2048x512 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc0 : ¬ cond1_0 i) (hc1 : cond1_1 i)
    (x0 : Vec F S1024x512 .bf16) (x1 : Vec F S2048x512 .bf16) (x2 : Vec F S1x2048 .f32)
    (x3 : Vec F S1024x2048 .f32) (s : Vec F S1024x2048 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare s
        ∗ (iprop(owns (c : Thread nD τ) arg3 fullShare x0 ∗ owns (c : Thread nD τ) arg4 fullShare x1
            ∗ owns (c : Thread nD τ) arg5 fullShare x2 ∗ owns (c : Thread nD τ) arg6 fullShare (k1_pay3 (k1_pay2 x0 x1 s) x2)
            ∗ owns (c : Thread nD τ) arg7 fullShare (k1_pay2 x0 x1 s)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_run_names
    rw [View.read_writes_eq_canon _ _ _ (cover_head1 _ _)]
    rw [View.canon_unit_zero hz1, View.readCov_unit_zero (S := S1024x2048) _ hz1]
    simp only [View.readAt_eq_ld, harg3.read_unread, harg4.read_unread,
      harg5.read_unread, harg7.read_unread, View.ld_unit_zero (S := S1024x512) hz1, View.ld_unit_zero (S := S2048x512) hz1,
      View.ld_unit_zero (S := S1024x2048) hz1, View.ld_unit_zero (S := S1x2048) hz1]
  iexists _; isplitr
  swap; · iexact HS
  ipureintro
  sl_unfold_run_names
  rw [View.read_writes_eq_canon _ _ _ (cover_head1 _ _)]
  rw [View.canon_unit_zero hz1]
  simp only [View.readAt_eq_ld, harg3.read_unread, harg4.read_unread, harg7.read_unread,
    View.ld_unit_zero (S := S1024x512) hz1, View.ld_unit_zero (S := S2048x512) hz1, View.ld_unit_zero (S := S1024x2048) hz1]

/-! ## The invariant, position by position -/

/-- The class invariant with the accumulator's buffer split off the scoped rest: the scratch as a memref owned at
    some contents, every other scoped buffer that is no staging buffer of this call unopened, the generator register. -/
theorem PhiA1_eq (c : Dev nD) :
    (Pipeline.ΦA spec1 c : sProp 𝕄)
      = iprop((∃ d, owns (c : Thread nD τ) scM1 fullShare d)
          ∗ Pipeline.scopedRestBut (Ix := Unit) (Name := ℕ) (U := UR sig nD τ) (Lvl := ℕ) (Val := Elt F) spec1 c [cc1_scratch0]
          ∗ (∃ r, prngReg c r)) := by
  unfold Pipeline.ΦA
  rw [Pipeline.scopedRest_split_of_list spec1 c [cc1_scratch0] (by decide) (by decide)]
  simp only [bigSepL_singleton, scM1, owns_whole]
  exact Idealize.SL.BI.Entails.antisymm Idealize.SL.BI.sep_assoc Idealize.SL.BI.sep_assoc'

theorem PhiS1_zero (c : Dev nD) (n : ℕ) (h : n ≤ cfg1.N) (hz : n = 0) : PhiS1 V c n h = Pipeline.ΦA spec1 c := by
  subst hz; rfl

/-- After point n (before point n + 1): the accumulator at that point's value. -/
theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## What the inputs' staging buffers hold when the body runs -/

/-- Each input's current staging buffer holds its block at every point, fetched there or not: where the pipeline does
    not fetch, the block index has not moved since the point before, and the body leaves the inputs as it finds them. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- The bias row's window is fetched only where the k coordinate is 0 and keeps its block over the k axis. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point t (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the k coordinate says which of the three cases the point
    is in. Where k = 0 the scratch (at anything at the very first point, at what the point before left afterwards) is reset
    and this point's product added; where k = 1, 2 the product is added to what the point before left; where k = 3 the
    same, and the output block is the accumulator plus the bias row. Off k = 3 the output window is idle and its buffer
    is handed back as found. The invariant takes the scratch back at the accumulator's value at this point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 64 := lt_of_lt_of_eq t.isLt (show cfg1.N = 64 from N_1)
  by_cases h0 : t.val % 4 = 0
  · have h1 : ¬ t.val % 4 = 3 := by omega
    rw [Dat.leavesExact_idle (dat1 V c) 3 t (idleAt1_3 t h1) (noFlush1_3 t h1)]
    rw [acc1_reset V c t h0]
    by_cases hz : t.val = 0
    · rw [PhiS1_castSucc V c t, PhiS1_zero V c _ _ hz, PhiA1_eq]
      iintro ⟨⟨⟨%ds, HS⟩, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, HR, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [acc1_step V c t h0]
    rw [PhiS1_castSucc V c t, PhiS1_pos V c _ _ hz]
    by_cases h1 : t.val % 4 = 3
    · rw [show (dat1 V c).leavesExact 3 t = owns (c : Thread nD τ) (st1_3 t) fullShare ((dat1 V c).after 3 t) from by
        unfold Dat.leavesExact; rw [liveAt1_3 t h1], after1_3, acc1_step V c t h0]
      iintro ⟨⟨HS, HR, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1)
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      iintro ⟨⟨HS, HR, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h))
        (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨HS, HR, Hg⟩
  isplitl [HS]; · iexists _; iexact HS
  isplitl [HR]; · iexact HR
  iexact Hg

end Cert.KernelIdeal.Hand

end
-- ==== Proof.KI.Run.lean ====
/-
  The run of @main: its five items (two reshapes; the dequantisation call; a reshape, a conversion and a reshape; the
  matrix-product call; a reshape), the contents of every buffer of the core at each boundary between items as a fold from the
  launch memory, and the theorem that every weakly fair execution terminates with every unscoped buffer at the last boundary's
  contents.
-/
import proofs.«408300_j9380208575266_3_alg».proof.Proof.KI.Reg0
import proofs.«408300_j9380208575266_3_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m ((c : Dev nD), b)
/-- After the first two reshapes (the dequantisation call's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the dequantisation call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the reshape of x, its conversion and the reshape of the bias (the matrix-product call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the matrix-product call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
/-- After the last reshape: the contents @main returns with. -/
abbrev W5 : Dev nD → Valuation τ sig (Elt F) := fun c => StableHlo.after hostOps2 (W4 m c)

/-! ## The arguments end as launched -/

/-- Each region's arrays at its exit hold what its pipeline leaves, and every other buffer what it held at the entry. -/
theorem exitArr0 (c : Dev nD) (w : Fin cfg0.W) : (dat0 (V1 m) c).arrAt w cfg0.N = V2 m c (Pipeline.arrRef spec0 w) :=
  (W2_arr m c w).symm
theorem exitRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem exitArr1 (c : Dev nD) (w : Fin cfg1.W) : (dat1 (V3 m) c).arrAt w cfg1.N = V4 m c (Pipeline.arrRef spec1 w) :=
  (W4_arr m c w).symm
theorem exitRest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that no reshape or conversion of @main writes (those write the intermediates 0, 1, 3, 4, 5 and the result 7) and
    that is no array of either call keeps its launch contents through the whole fold: the three host stretches leave it
    (a stretch changes only what it writes) and the two calls bypass it (a call changes only its arrays). -/
theorem W5_of_untouched (c : Dev nD) (b : Ref sig .tc)
    (hw : b ≠ main_v0 ∧ b ≠ main_v1 ∧ b ≠ main_v3 ∧ b ≠ main_v4 ∧ b ≠ main_v5 ∧ b ≠ main_v7)
    (h0 : ∀ w, Pipeline.arrRef spec0 w ≠ b) (h1 : ∀ w, Pipeline.arrRef spec1 w ≠ b) :
    W5 m c (Proc.devRef .tc b) = m ((c : Thread nD τ).loc b) := by
  obtain ⟨n0, n1, n3, n4, n5, n7⟩ := hw
  calc W5 m c (Proc.devRef .tc b)
    _ = W4 m c (Proc.devRef .tc b) := StableHlo.after_of_forall_not_mem (b := Proc.devRef .tc b) _ _ (List.forall_iff_forall_mem.mp (by
          simp only [hostOps2, List.Forall, StableHlo.reshape_writes, Finset.mem_singleton]
          exact StableHlo.devRef_ne_of_ne n7))
    _ = W3 m c (Proc.devRef .tc b) := W4_of_ne m c b h1
    _ = W2 m c (Proc.devRef .tc b) := StableHlo.after_of_forall_not_mem (b := Proc.devRef .tc b) _ _ (List.forall_iff_forall_mem.mp (by
          simp only [hostOps1, List.Forall, StableHlo.reshape_writes, StableHlo.unary_writes, Finset.mem_singleton]
          exact ⟨StableHlo.devRef_ne_of_ne n3, StableHlo.devRef_ne_of_ne n4, StableHlo.devRef_ne_of_ne n5⟩))
    _ = W1 m c (Proc.devRef .tc b) := W2_of_ne m c b h0
    _ = W0 m c (Proc.devRef .tc b) := StableHlo.after_of_forall_not_mem (b := Proc.devRef .tc b) _ _ (List.forall_iff_forall_mem.mp (by
          simp only [hostOps0, List.Forall, StableHlo.reshape_writes, Finset.mem_singleton]
          exact ⟨StableHlo.devRef_ne_of_ne n0, StableHlo.devRef_ne_of_ne n1⟩))
    _ = m ((c : Thread nD τ).loc b) := rfl

theorem W5_main_arg0 (c : Dev nD) : W5 m c (Proc.devRef .tc main_arg0) = m ((c : Thread nD τ).loc main_arg0) :=
  W5_of_untouched m c main_arg0 (by decide) (by decide) (by decide)
theorem W5_main_arg1 (c : Dev nD) : W5 m c (Proc.devRef .tc main_arg1) = m ((c : Thread nD τ).loc main_arg1) :=
  W5_of_untouched m c main_arg1 (by decide) (by decide) (by decide)
theorem W5_main_arg2 (c : Dev nD) : W5 m c (Proc.devRef .tc main_arg2) = m ((c : Thread nD τ).loc main_arg2) :=
  W5_of_untouched m c main_arg2 (by decide) (by decide) (by decide)
theorem W5_main_arg3 (c : Dev nD) : W5 m c (Proc.devRef .tc main_arg3) = m ((c : Thread nD τ).loc main_arg3) :=
  W5_of_untouched m c main_arg3 (by decide) (by decide) (by decide)

/-! ## The run -/

/-! ### The proof data family and the thread state -/

/-- The prefetched tables' admissible contents: neither call has a table. -/
abbrev runAdm : (p : Fin 2) → (pcfgs (F := F) p).Adm := fun p => (cfgs p).toPCfg_adm
/-- Each call's proof data at its entry contents, a literal match on the call's index. -/
def runDats : (p : Fin 2) → (c : Dev nD) → Dat τ (Elt F) Unit ℕ (UR sig nD τ) ℕ (Pipeline.pin (pcfgs (F := F)) runAdm p) c
  | ⟨0, _⟩ => fun c => dat0 (V1 m) c
  | ⟨1, _⟩ => fun c => dat1 (V3 m) c
abbrev runVar : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state and its debts, none. -/
abbrev Rside (c : Dev nD) : sProp 𝕄 := iprop((∃ r, prngReg c r) ∗ ∃ W, owes (c : Thread nD τ) (0 : CellTallies nD τ sig Unit) W)
/-- A host stretch as a segment: from every unscoped buffer at the contents W to the same at the stretch's result from W. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ runVar runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

/-- No reshape or conversion allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- The last thread state without the debts: every unscoped buffer at the last boundary's contents, the generator register
    at some state. -/
abbrev Tlast (c : Dev nD) : sProp 𝕄 := iprop(StableHlo.held (c : Thread nD τ) (Pipeline.ucRefs τ sig) (W5 m c) ∗ ∃ r, prngReg c r)

/-- What the last reshape leaves is the last thread state beside the debts: the same resources, regrouped. -/
theorem last_reassoc (c : Dev nD) :
    iprop(StableHlo.held (c : Thread nD τ) (Pipeline.ucRefs τ sig) (W5 m c) ∗ Rside c)
      ⊢ iprop(Tlast m c ∗ ∃ W, owes (c : Thread nD τ) (0 : CellTallies nD τ sig Unit) W) := by
  iintro ⟨Hh, Hp, HO⟩
  isplitl [Hh Hp]
  · isplitl [Hh]; · iexact Hh
    iexact Hp
  iexact HO

/-! ### The two calls as segments -/

set_option backward.isDefEq.respectTransparency.types false in
/-- The dequantisation call over the thread state: entered from every unscoped buffer at W1, left at W2. Its arrays are split
    out of the unscoped buffers and put back at the exit contents; the generator register goes into the class invariant and
    comes out; nothing is owed; the kernel has no semaphore of its own. -/
def region0 : Pipeline.RegionSeg (pcfgs (F := F)) runAdm (runDats m) () defs₀ runVar runL runLv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ runL runLv 0 fun _ _ => rfl
  pre c := iprop(StableHlo.held (c : Thread nD τ) (Pipeline.ucRefs τ sig) (W1 m c) ∗ Rside c)
  post c := iprop(StableHlo.held (c : Thread nD τ) (Pipeline.ucRefs τ sig) (W2 m c) ∗ Rside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) runAdm (runDats m) launch0.win launch0.arr_whole c
      ((runDats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (runDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) runAdm (Ix := Unit) (Name := ℕ) (U := UR sig nD τ) (Lvl := ℕ)
      launch0.win launch0.arr_whole c (runDats m) ((runDats m 0 c).share_full fun _ => rfl)
      (V1 m c) (V2 m c) ((runDats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product call over the thread state: entered from every unscoped buffer at W3, left at W4. As the first call,
    but for its invariant, which names the accumulator from the second point on: the class invariant makes it before the
    first point and it gives the class invariant back after the last. -/
def region1 : Pipeline.RegionSeg (pcfgs (F := F)) runAdm (runDats m) () defs₀ runVar runL runLv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ runL runLv 1 fun _ _ => rfl
  pre c := iprop(StableHlo.held (c : Thread nD τ) (Pipeline.ucRefs τ sig) (W3 m c) ∗ Rside c)
  post c := iprop(StableHlo.held (c : Thread nD τ) (Pipeline.ucRefs τ sig) (W4 m c) ∗ Rside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) runAdm (runDats m) launch1.win launch1.arr_whole c
      ((runDats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (runDats m 1 c).Φ 0 = (dat1 (V3 m) c).Φ 0 from rfl]
    refine BIBase.Entails.trans ?_ (hin1 (V3 m) c)
    unfold Pipeline.ΦA
    iintro ⟨Hp, -, Hr⟩
    isplitl [Hr]; · iexact Hr
    iexact Hp
  hout c := by
    rw [Pipeline.ownSems0_none, show (runDats m 1 c).Φ (Fin.last _) = (dat1 (V3 m) c).Φ (Fin.last cfg1.N) from rfl]
    refine BIBase.Entails.trans (hout1 (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) runAdm (Ix := Unit) (Name := ℕ) (U := UR sig nD τ) (Lvl := ℕ)
      launch1.win launch1.arr_whole c (runDats m) ((runDats m 1 c).share_full fun _ => rfl)
      (V3 m c) (V4 m c) ((runDats m 1 c).arrAt · cfg1.N) (exitArr1 m c) (exitRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### @main as segments, and the launch -/

/-- @main's five items in order: a host segment per stretch from its boundary's contents, a region per call. -/
abbrev runSegs : List (Pipeline.Seg (pcfgs (F := F)) runAdm (runDats m) () defs₀ runVar runL runLv) :=
  [ .host (hostSeg hostOps0 hostOps0_sub hostOps0_fresh (W0 m)),
    .region (region0 m),
    .host (hostSeg hostOps1 hostOps1_sub hostOps1_fresh (W2 m)),
    .region (region1 m),
    .host (hostSeg hostOps2 hostOps2_sub hostOps2_fresh (W4 m)) ]
/-- @main is the run of the segments: it is the chain of its items, and the segments' run is that chain. -/
theorem main_run (c : Dev nD) : main (F := F) c = Pipeline.Seg.run (runSegs m) := (main_chain c).trans (by chain_rfl)

set_option backward.isDefEq.respectTransparency.types false in
/-- From any memory with zero counters every weakly fair execution of @main terminates, nothing faulting, and every final
    state has each unscoped buffer of each core at the last boundary's contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W5 m c b) :=
  Pipeline.θ_run_regions_kit (pcfgs (F := F)) runAdm (runDats m) () cellOf_inj emb₁ defs₀ runVar runL runLv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rside c)) (Tₙ := Tlast m)
    (hch := ⟨fun _ => .rfl, fun _ => .rfl, fun _ => .rfl, fun _ => .rfl, fun _ => .rfl, fun c => last_reassoc m c⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- The run with the result named: the result array at the last boundary's contents, the arguments as launched. -/
theorem run_value : θ_run defs (onTc (τ := τ) (main (F := F))) ⟨m, fun _ => 0, ρ⟩ (fun r => ∀ c : Dev nD,
      r.2.mem ((c.tc : Thread nD τ).loc main_v7) = W5 m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v7 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.Spec.lean ====
/-
  The specification both programs meet: a linear layer whose weight matrix is stored as 4-bit codes with one scale per 64
  consecutive entries.  Entry (o, k) of the weight is level(code) * scale of its block, where the flat position of (o, k)
  is o * 2048 + k and its block is o * 32 + k / 64; the result at (p, r, o) is the sum over k of x(p, r, k) * weight(o, k),
  plus bias(o).  Everything is an extended real.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Sx : Shape := ⟨3, ![2, 2048, 2048]⟩
abbrev Sq : Shape := ⟨1, ![16777216]⟩
abbrev Ss : Shape := ⟨1, ![262144]⟩
abbrev Sb : Shape := ⟨1, ![8192]⟩
abbrev Sy : Shape := ⟨3, ![2, 2048, 8192]⟩

/-- The sixteen quantisation levels, as f32 words, by code. -/
abbrev tab : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

/-- The level a code word names (a code is a word below 16; any other word is read modulo 16, which no claim uses). -/
def level (q : BitVec 32) : Ideal .f32 := Ideal.ofBits .f32 (tab ⟨q.toNat % 16, Nat.mod_lt _ (by decide)⟩)

/-- Entry (o, k) of the dequantised weight matrix. -/
def weight (q : IVec Sq 32) (s : FVec Ideal Ss .f32) (o : Fin 8192) (k : Fin 2048) : Ideal .f32 :=
  level (q (ix1 (⟨o.val * 2048 + k.val, by have := o.isLt; have := k.isLt; omega⟩ : Fin 16777216)))
    * s (ix1 (⟨o.val * 32 + k.val / 64, by have := o.isLt; have := k.isLt; omega⟩ : Fin 262144))

/-- The result at batch p, row r, output feature o. -/
def resultAt (x : FVec Ideal Sx .f32) (q : IVec Sq 32) (s : FVec Ideal Ss .f32) (b : FVec Ideal Sb .f32)
    (p : Fin 2) (r : Fin 2048) (o : Fin 8192) : Ideal .f32 :=
  (∑ k : Fin 2048, x (ix3 p r k) * weight q s o k) + b (ix1 o)

/-- The whole result array. -/
def result (x : FVec Ideal Sx .f32) (q : IVec Sq 32) (s : FVec Ideal Ss .f32) (b : FVec Ideal Sb .f32) : FVec Ideal Sy .f32 :=
  fun j => resultAt x q s b (j 0) (j 1) (j 2)

theorem result_apply (x : FVec Ideal Sx .f32) (q : IVec Sq 32) (s : FVec Ideal Ss .f32) (b : FVec Ideal Sb .f32)
    (p : Fin 2) (r : Fin 2048) (o : Fin 8192) : result x q s b (ix3 p r o) = resultAt x q s b p r o := rfl

/-- Every code is a word below 16: what the precondition says of the codes. -/
def CodesInRange (q : IVec Sq 32) : Prop := ∀ i : Fin 16777216, (q (ix1 i)).toNat < 16

end Cert.Spec

end
-- ==== Proof.LibKeepdims.lean ====
/-
  Two keepdims broadcasts read at an index, for any extents and any element type.

  A rank-2 array given a unit axis by a shape cast and then broadcast along that axis to rank 3 reads, at (p, q, s), the
  operand at the two coordinates it had: a per-(p, q) value spread over the last axis (`[n, a] → [n, a, 1] → [n, a, c]`),
  and a per-(p, s) value spread over the middle axis (`[n, c] → [n, 1, c] → [n, a, c]`). The shape cast keeps the
  row-major position and the broadcast reads coordinate 0 on the unit axis.
-/
import Idealize.ShloMosaic.Lib.Pipeline.Value
import Idealize.ShloMosaic.Lib.ValueIdx

namespace Cert.Keepdims

open Idealize.ShloMosaic Idealize.ShloMosaic.ValueIdx

variable {α : Type}

/-- `[n, a] → [n, a, 1] → [n, a, c]`: the value at (p, q), whatever the last coordinate. -/
theorem spreadLast_apply {n a c : ℕ} (x : (⟨2, ![n, a]⟩ : Shape).Idx → α)
    (h1 : (⟨2, ![n, a]⟩ : Shape).ShapeCasts ⟨3, ![n, a, 1]⟩) (h2 : (⟨3, ![n, a, 1]⟩ : Shape).Broadcasts ⟨3, ![n, a, c]⟩)
    (p : Fin n) (q : Fin a) (s : Fin c) :
    broadcastTo ⟨3, ![n, a, c]⟩ (shapeCast ⟨3, ![n, a, 1]⟩ x h1) h2 (ix3 p q s) = x (ix2 p q) := by
  refine (broadcastTo_apply _ h2 (ix3 p q s) (ix3 p q (0 : Fin 1)) fun ax => ?_).trans ?_
  · match ax with
    | ⟨0, _⟩ =>
      show p.val = if n = 1 then 0 else p.val
      split
      · have := p.isLt; omega
      · rfl
    | ⟨1, _⟩ =>
      show q.val = if a = 1 then 0 else q.val
      split
      · have := q.isLt; omega
      · rfl
    | ⟨2, _⟩ => rfl
  · exact shapeCast_apply x h1 _ _ (by
      rw [Shape.rowMajor_val_two, Shape.rowMajor_val_three]
      show p.val * a + q.val = (p.val * a + q.val) * 1 + 0
      rw [Nat.mul_one, Nat.add_zero])

/-- `[n, c] → [n, 1, c] → [n, a, c]`: the value at (p, s), whatever the middle coordinate. -/
theorem spreadMid_apply {n a c : ℕ} (x : (⟨2, ![n, c]⟩ : Shape).Idx → α)
    (h1 : (⟨2, ![n, c]⟩ : Shape).ShapeCasts ⟨3, ![n, 1, c]⟩) (h2 : (⟨3, ![n, 1, c]⟩ : Shape).Broadcasts ⟨3, ![n, a, c]⟩)
    (p : Fin n) (q : Fin a) (s : Fin c) :
    broadcastTo ⟨3, ![n, a, c]⟩ (shapeCast ⟨3, ![n, 1, c]⟩ x h1) h2 (ix3 p q s) = x (ix2 p s) := by
  refine (broadcastTo_apply _ h2 (ix3 p q s) (ix3 p (0 : Fin 1) s) fun ax => ?_).trans ?_
  · match ax with
    | ⟨0, _⟩ =>
      show p.val = if n = 1 then 0 else p.val
      split
      · have := p.isLt; omega
      · rfl
    | ⟨1, _⟩ => rfl
    | ⟨2, _⟩ =>
      show s.val = if c = 1 then 0 else s.val
      split
      · have := s.isLt; omega
      · rfl
  · exact shapeCast_apply x h1 _ _ (by
      rw [Shape.rowMajor_val_two, Shape.rowMajor_val_three]
      show p.val * c + s.val = (p.val * 1 + 0) * c + s.val
      rw [Nat.mul_one, Nat.add_zero])

end Cert.Keepdims
-- ==== Proof.KI.Val0.lean ====
/-
  What the dequantisation call leaves in its output array, read at an index: entry (o, k) is the level its code names times
  the scale of its block of 64, the sixteen row blocks of 512 covering the array.
-/
import proofs.«408300_j9380208575266_3_alg».proof.Proof.KI.Reg0
import proofs.«408300_j9380208575266_3_alg».proof.Proof.Spec
import proofs.«408300_j9380208575266_3_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (V : (c : Dev nD) → (b : Ref sig .tc) → Buf (Elt Ideal) ((c : Thread nD τ).loc b))

/-- The array of codes the call reads, (8192, 2048). -/
abbrev qarr (c : Dev nD) : IVec S8192x2048 32 := V c main_v0
/-- The array of scales the call reads, (8192, 32). -/
abbrev sarr (c : Dev nD) : FVec Ideal S8192x32 .f32 := V c main_v1
/-- The array the call writes, after its last point. -/
abbrev warr (c : Dev nD) : FVec Ideal S8192x2048 .bf16 := (dat0 V c).arrAt 2 cfg0.N

namespace Deq

/-! ## One block: the payload at an index -/

/-- A select on "the word is b" is the if on that equation. -/
theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := beq_false_of_ne h
    rw [hb, if_neg h]; rfl

/-- The word operations of the payload, read at an index: each acts element by element. -/
theorem cmpi_apply {s : Shape} {w : Nat} (q : CmpIPredicate) (a b : IVec s w) (i : s.Idx) :
    cmpi q a b i = IntOp.cmpi q (a i) (b i) := rfl
theorem minsi_apply {s : Shape} {w : Nat} (a b : IVec s w) (i : s.Idx) : minsi a b i = IntOp.minsi (a i) (b i) := rfl
theorem maxsi_apply {s : Shape} {w : Nat} (a b : IVec s w) (i : s.Idx) : maxsi a b i = IntOp.maxsi (a i) (b i) := rfl

/-- Clipping a code word below 16 into [0, 15], as signed words, changes nothing. -/
theorem clip_eq (c : BitVec 32) (h : c.toNat < 16) : IntOp.minsi 15#32 (IntOp.maxsi 0#32 c) = c := by
  obtain ⟨n, hn, rfl⟩ : ∃ n, n < 16 ∧ c = BitVec.ofNat 32 n := ⟨c.toNat, h, by simp⟩
  interval_cases n <;> decide

/-- The scales of a block, (512, 32), given a unit axis, spread over 64 along it and flattened to (512, 2048): entry
    (p, k) is the scale at (p, k / 64), since k = (k / 64) * 64 + k % 64 is the row-major position of (k / 64, k % 64). -/
theorem spread_apply (x1 : Vec Ideal S512x32 .f32) (p : Fin 512) (k : Fin 2048) :
    shapeCast S512x2048 (broadcastTo S512x32x64 (shapeCast S512x32x1 x1 shapeCasts_S512x32_S512x32x1) broadcasts_S512x32x1_S512x32x64) shapeCasts_S512x32x64_S512x2048 (ix2 p k)
      = x1 (ix2 p (⟨k.val / 64, by have := k.isLt; omega⟩ : Fin 32)) := by
  refine (shapeCast_apply _ shapeCasts_S512x32x64_S512x2048 (ix2 p k) (ix3 p (⟨k.val / 64, by have := k.isLt; omega⟩ : Fin 32) (⟨k.val % 64, Nat.mod_lt _ (by decide)⟩ : Fin 64)) ?_).trans ?_
  · rw [Shape.rowMajor_val_two, Shape.rowMajor_val_three]
    show (p.val * 32 + k.val / 64) * 64 + k.val % 64 = p.val * 2048 + k.val
    omega
  · exact Cert.Keepdims.spreadLast_apply x1 _ _ p _ _

/-- Entry (p, k) of the dequantised block, where the code there is a word below 16: the clip leaves the code alone, the
    chain of sixteen comparisons picks the level the code names, and the factor is the scale of the entry's block of 64;
    the narrowing at the end is the identity on extended reals. -/
theorem out0_2_apply (x0 : Vec Ideal S512x2048 .i32) (x1 : Vec Ideal S512x32 .f32) (p : Fin 512) (k : Fin 2048)
    (h : (x0 (ix2 p k)).toNat < 16) :
    out0_2 x0 x1 (ix2 p k) = Cert.Spec.level (x0 (ix2 p k)) * x1 (ix2 p (⟨k.val / 64, by have := k.isLt; omega⟩ : Fin 32)) := by
  unfold out0_2 k0_pay1 k0_pay3 k0_pay4 k0_pay5 k0_pay2
  simp only [truncf_apply, mulf_apply, select_apply, cmpi_apply, minsi_apply, maxsi_apply, broadcast_apply, shapeCast_self, select_cmpi_eq]
  rw [spread_apply, clip_eq _ h]
  congr 1
  generalize x0 (ix2 p k) = c at h
  obtain ⟨n, hn, rfl⟩ : ∃ n, n < 16 ∧ c = BitVec.ofNat 32 n := ⟨c.toNat, h, by simp⟩
  interval_cases n <;> simp [Cert.Spec.level, Cert.Spec.tab]

/-! ## From the blocks to the array -/

/-- The whole dequantised array as one function of the array of codes and the array of scales. -/
def deq (q : IVec S8192x2048 32) (s : FVec Ideal S8192x32 .f32) : FVec Ideal S8192x2048 .bf16 :=
  fun i => Cert.Spec.level (q i) * s (ix2 (⟨(i 0).val, idx2_lt0 i⟩ : Fin 8192) (⟨(i 1).val / 64, by have := idx2_lt1 i; omega⟩ : Fin 32))

/-- The three index maps over the sixteen points: point t is at block (t, 0) of each array. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem N_eq : cfg0.N = 16 := by decide

/-- A point of the grid is below 16. -/
theorem pt_lt (t : Fin cfg0.N) : t.val < 16 := lt_of_lt_of_eq t.isLt N_eq

/-- Block t of the codes is rows 512 t … 512 t + 511 of the array of codes. -/
theorem codes_blk_apply (c : Dev nD) (t : Fin cfg0.N) (p : Fin 512) (k : Fin 2048) :
    (iblk0 V c 0 t : Vec Ideal S512x2048 .i32) (ix2 p k)
      = qarr V c (ix2 (⟨t.val * 512 + p.val, by have := pt_lt t; have := p.isLt; omega⟩ : Fin 8192) k) := by
  obtain ⟨e0, e1, -⟩ := idx_facts t
  unfold iblk0
  rw [View.read_apply]
  show V c main_v0 (((cfg0.win 0).blk t).view.emb (ix2 p k)) = V c main_v0 _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 2048 + 1 * k.val = k.val; rw [e1]; omega

/-- Block t of the scales is rows 512 t … 512 t + 511 of the array of scales. -/
theorem scales_blk_apply (c : Dev nD) (t : Fin cfg0.N) (p : Fin 512) (g : Fin 32) :
    (iblk0 V c 1 t : Vec Ideal S512x32 .f32) (ix2 p g)
      = sarr V c (ix2 (⟨t.val * 512 + p.val, by have := pt_lt t; have := p.isLt; omega⟩ : Fin 8192) g) := by
  obtain ⟨-, -, e0, e1, -⟩ := idx_facts t
  unfold iblk0
  rw [View.read_apply]
  show V c main_v1 (((cfg0.win 1).blk t).view.emb (ix2 p g)) = V c main_v1 _
  congr 1
  funext a
  apply Fin.ext
  match a with
  | ⟨0, _⟩ => show win0_1.index t (0 : Fin 2) * 512 + 1 * p.val = t.val * 512 + p.val; rw [e0]; omega
  | ⟨1, _⟩ => show win0_1.index t (1 : Fin 2) * 32 + 1 * g.val = g.val; rw [e1]; omega

/-- What point t writes back is block t of the whole dequantised array. -/
theorem flushed_eq (c : Dev nD) (hq : ∀ (o : Fin 8192) (k : Fin 2048), (qarr V c (ix2 o k)).toNat < 16) (t : Fin cfg0.N) :
    (dat0 V c).flushed 2 t = ((cfg0.win 2).blk t).view.read (Elt Ideal) (deq (qarr V c) (sarr V c)) := by
  show (cfg0.win 2).cut (grid0.coords t) ((dat0 V c).after 2 t) = _
  rw [after0_2]
  obtain ⟨-, -, -, -, e0, e1⟩ := idx_facts t
  refine funext fun (j : S512x2048.Idx) => ?_
  obtain ⟨p, k, rfl⟩ : ∃ (p : Fin 512) (k : Fin 2048), j = ix2 p k := ⟨j 0, j 1, eq_ix2 j⟩
  show out0_2 (iblk0 V c 0 t) (iblk0 V c 1 t) (ix2 p k) = deq (qarr V c) (sarr V c) (((cfg0.win 2).blk t).view.emb (ix2 p k))
  have hi : ((cfg0.win 2).blk t).view.emb (ix2 p k)
      = ix2 (⟨t.val * 512 + p.val, by have := pt_lt t; have := p.isLt; omega⟩ : Fin 8192) k := by
    funext a
    apply Fin.ext
    match a with
    | ⟨0, _⟩ => show win0_2.index t (0 : Fin 2) * 512 + 1 * p.val = t.val * 512 + p.val; rw [e0]; omega
    | ⟨1, _⟩ => show win0_2.index t (1 : Fin 2) * 2048 + 1 * k.val = k.val; rw [e1]; omega
  rw [hi]
  refine (out0_2_apply (iblk0 V c 0 t) (iblk0 V c 1 t) p k ?_).trans ?_
  · rw [codes_blk_apply]; exact hq _ _
  · rw [codes_blk_apply, scales_blk_apply]
    rfl

/-- An index of the array is in point t's block iff each coordinate is in the block's range on its axis. -/
theorem mem_blk (t : Fin cfg0.N) (i : S8192x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2).slice (win0_2.rect t)).set ↔ _
  rw [View.set_slice_whole, Rect.mem_set_unit]
  exact Iff.rfl

/-- Row o is covered by point o / 512: the sixteen row blocks tile the array. -/
theorem cover (i : S8192x2048.Idx) : ∃ t : Fin cfg0.N, (cfg0.win 2).flush t = true ∧ i ∈ ((cfg0.win 2).blk t).view.set := by
  have h0 : (i 0).val < 8192 := idx2_lt0 i
  have h1 : (i 1).val < 2048 := idx2_lt1 i
  refine ⟨⟨(i 0).val / 512, by rw [N_eq]; omega⟩, flush0_2 _, ?_⟩
  rw [mem_blk]
  obtain ⟨-, -, -, -, e0, e1⟩ := idx_facts ⟨(i 0).val / 512, by rw [N_eq]; omega⟩
  intro a
  match a with
  | ⟨0, _⟩ =>
    show win0_2.index _ (0 : Fin 2) * 512 ≤ (i 0).val ∧ (i 0).val < win0_2.index _ (0 : Fin 2) * 512 + 512
    rw [e0]; show (i 0).val / 512 * 512 ≤ (i 0).val ∧ (i 0).val < (i 0).val / 512 * 512 + 512; omega
  | ⟨1, _⟩ =>
    show win0_2.index _ (1 : Fin 2) * 2048 ≤ (i 1).val ∧ (i 1).val < win0_2.index _ (1 : Fin 2) * 2048 + 2048
    rw [e1]; omega

/-- The written array is the whole dequantised array. -/
theorem warr_eq (c : Dev nD) (hq : ∀ (o : Fin 8192) (k : Fin 2048), (qarr V c (ix2 o k)).toNat < 16) :
    warr V c = deq (qarr V c) (sarr V c) :=
  (dat0 V c).arrAt_eq_of_cover 2 (deq (qarr V c) (sarr V c)) (fun t _ => flushed_eq V c hq t) cover

end Deq

/-- Entry (o, k) of the written array, where every code is a word below 16. -/
theorem warr_apply (c : Dev nD) (hq : ∀ (o : Fin 8192) (k : Fin 2048), (qarr V c (ix2 o k)).toNat < 16)
    (o : Fin 8192) (k : Fin 2048) :
    warr V c (ix2 o k)
      = Cert.Spec.level (qarr V c (ix2 o k)) * sarr V c (ix2 o (⟨k.val / 64, by have := k.isLt; omega⟩ : Fin 32)) := by
  rw [Deq.warr_eq V c hq]
  rfl

end Cert.KernelIdeal.Hand

end
-- ==== Proof.KI.Val1.lean ====
/-
  What the matrix-product call leaves in its output array, read at an index: entry (r, o) is the sum over all 2048 values of
  k of x(r, k) * w(o, k), plus the bias at o — the four partial sums over 512 values of k that the four points of a block's
  k axis add into the accumulator, regrouped into the one sum.
-/
import proofs.«408300_j9380208575266_3_alg».proof.Proof.KI.Reg1
import proofs.«408300_j9380208575266_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

namespace Mm

/-! ## The payloads at an index -/

/-- The reset value is zero everywhere. -/
theorem pay1_apply (j : S1024x2048.Idx) : (k1_pay1 (F := Ideal)) j = 0 := by
  unfold k1_pay1
  rw [shapeCast_self]
  exact Ideal.ofBits_zero_f32

/-- The product's operand indices at output entry i and contraction position q: the left operand is read at row i 0 and
    column q, the right one at row i 1 and column q (both contract their second axis). -/
theorem lhs_dotK_0 (i : S1024x2048.Idx) (q : dot_S1024x512_S2048x512_S1024x2048_1_1_0_0_n_n.contr.Idx) :
    (dot_S1024x512_S2048x512_S1024x2048_1_1_0_0_n_n.lhsIdx i q 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_dotK_1 (i : S1024x2048.Idx) (q : dot_S1024x512_S2048x512_S1024x2048_1_1_0_0_n_n.contr.Idx) :
    (dot_S1024x512_S2048x512_S1024x2048_1_1_0_0_n_n.lhsIdx i q 1).val = (q ⟨0, by decide⟩).val :=
  dot_S1024x512_S2048x512_S1024x2048_1_1_0_0_n_n.lhsIdx_val_of_single rfl i q
theorem rhs_dotK_0 (i : S1024x2048.Idx) (q : dot_S1024x512_S2048x512_S1024x2048_1_1_0_0_n_n.contr.Idx) :
    (dot_S1024x512_S2048x512_S1024x2048_1_1_0_0_n_n.rhsIdx i q 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_dotK_1 (i : S1024x2048.Idx) (q : dot_S1024x512_S2048x512_S1024x2048_1_1_0_0_n_n.contr.Idx) :
    (dot_S1024x512_S2048x512_S1024x2048_1_1_0_0_n_n.rhsIdx i q 1).val = (q ⟨0, by decide⟩).val :=
  dot_S1024x512_S2048x512_S1024x2048_1_1_0_0_n_n.rhsIdx_val_of_single rfl i q

/-- One point's step: the accumulator plus the product of the two blocks, summed over the block's 512 values of k. -/
theorem pay2_apply (x : FVec Ideal S1024x512 .bf16) (w : FVec Ideal S2048x512 .bf16) (s : FVec Ideal S1024x2048 .f32)
    (r : Fin 1024) (n : Fin 2048) :
    k1_pay2 x w s (ix2 r n) = s (ix2 r n) + ∑ kk : Fin 512, x (ix2 r kk) * w (ix2 n kk) := by
  unfold k1_pay2
  rw [shapeCast_self, shapeCast_self, shapeCast_self, addf_apply]
  congr 1
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 r n) ((contrEquiv1 dot_S1024x512_S2048x512_S1024x2048_1_1_0_0_n_n 512 rfl rfl).symm k) = ix2 r k := funext fun a => Fin.ext (by
    match a with
    | ⟨0, _⟩ => exact lhs_dotK_0 _ _
    | ⟨1, _⟩ => exact (lhs_dotK_1 _ _).trans hk)
  have er : dot_S1024x512_S2048x512_S1024x2048_1_1_0_0_n_n.rhsIdx (ix2 r n) ((contrEquiv1 dot_S1024x512_S2048x512_S1024x2048_1_1_0_0_n_n 512 rfl rfl).symm k) = ix2 n k := funext fun a => Fin.ext (by
    match a with
    | ⟨0, _⟩ => exact rhs_dotK_0 _ _
    | ⟨1, _⟩ => exact (rhs_dotK_1 _ _).trans hk)
  rw [el, er]

/-- The written block: the accumulator plus the bias row, the same in every row. -/
theorem pay3_apply (s : FVec Ideal S1024x2048 .f32) (b : FVec Ideal S1x2048 .f32) (r : Fin 1024) (n : Fin 2048) :
    k1_pay3 s b (ix2 r n) = s (ix2 r n) + b (ix2 (0 : Fin 1) n) := by
  unfold k1_pay3
  rw [shapeCast_self, addf_apply]
  congr 1
  refine broadcastTo_apply b _ (ix2 r n) (ix2 (0 : Fin 1) n) fun a => ?_
  match a with
  | ⟨0, _⟩ => rfl
  | ⟨1, _⟩ => rfl

end Mm

variable (V : (c : Dev nD) → (b : Ref sig .tc) → Buf (Elt Ideal) ((c : Thread nD τ).loc b))

/-- The left operand the call reads, (4096, 2048). -/
abbrev xarr (c : Dev nD) : FVec Ideal S4096x2048 .bf16 := V c main_v4
/-- The weight matrix the call reads, (8192, 2048). -/
abbrev w2arr (c : Dev nD) : FVec Ideal S8192x2048 .bf16 := V c main_v2
/-- The bias row the call reads, (1, 8192). -/
abbrev barr (c : Dev nD) : FVec Ideal S1x8192 .f32 := V c main_v5
/-- The array the call writes, after its last point. -/
abbrev yarr (c : Dev nD) : FVec Ideal S4096x8192 .f32 := (dat1 V c).arrAt 3 cfg1.N

namespace Mm

/-! ## The blocks at a point, read off the arrays -/

/-- Where the four windows' blocks sit at point t = 16 i + 4 j + k: x's at (i, k), the weight's at (j, k), the bias's at
    (0, j), the output's at (i, j). Decided over the 64 points. -/
theorem blockIdx1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- x's block at point t, entry (r, kk), is x at row 1024 i + r and column 512 k + kk. -/
theorem xblk_apply (c : Dev nD) (t : Fin cfg1.N) (r : Fin 1024) (kk : Fin 512) (R : Fin 4096) (K : Fin 2048)
    (hR : R.val = 1024 * (t.val / 16) + r.val) (hK : K.val = 512 * (t.val % 4) + kk.val) :
    iblk1 V c 0 t (ix2 r kk) = xarr V c (ix2 R K) := by
  obtain ⟨e0, e1, -⟩ := blockIdx1 t
  show V c main_v4 (((cfg1.win 0).blk t).view.emb (ix2 r kk)) = V c main_v4 (ix2 R K)
  refine congrArg _ (funext fun a => Fin.ext ?_)
  match a with
  | ⟨0, _⟩ => show win1_0.index t (0 : Fin 2) * 1024 + 1 * r.val = R.val; omega
  | ⟨1, _⟩ => show win1_0.index t (1 : Fin 2) * 512 + 1 * kk.val = K.val; omega

/-- The weight's block at point t, entry (n, kk), is the weight at row 2048 j + n and column 512 k + kk. -/
theorem wblk_apply (c : Dev nD) (t : Fin cfg1.N) (n : Fin 2048) (kk : Fin 512) (O : Fin 8192) (K : Fin 2048)
    (hO : O.val = 2048 * (t.val / 4 % 4) + n.val) (hK : K.val = 512 * (t.val % 4) + kk.val) :
    iblk1 V c 1 t (ix2 n kk) = w2arr V c (ix2 O K) := by
  obtain ⟨-, -, e2, e3, -⟩ := blockIdx1 t
  show V c main_v2 (((cfg1.win 1).blk t).view.emb (ix2 n kk)) = V c main_v2 (ix2 O K)
  refine congrArg _ (funext fun a => Fin.ext ?_)
  match a with
  | ⟨0, _⟩ => show win1_1.index t (0 : Fin 2) * 2048 + 1 * n.val = O.val; omega
  | ⟨1, _⟩ => show win1_1.index t (1 : Fin 2) * 512 + 1 * kk.val = K.val; omega

/-- The bias's block at point t, entry (0, n), is the bias at column 2048 j + n. -/
theorem bblk_apply (c : Dev nD) (t : Fin cfg1.N) (n : Fin 2048) (O : Fin 8192)
    (hO : O.val = 2048 * (t.val / 4 % 4) + n.val) :
    iblk1 V c 2 t (ix2 (0 : Fin 1) n) = barr V c (ix2 (0 : Fin 1) O) := by
  obtain ⟨-, -, -, -, e4, e5, -⟩ := blockIdx1 t
  show V c main_v5 (((cfg1.win 2).blk t).view.emb (ix2 (0 : Fin 1) n)) = V c main_v5 (ix2 (0 : Fin 1) O)
  refine congrArg _ (funext fun a => Fin.ext ?_)
  match a with
  | ⟨0, _⟩ => show win1_2.index t (0 : Fin 2) * 1 + 1 * 0 = 0; omega
  | ⟨1, _⟩ => show win1_2.index t (1 : Fin 2) * 2048 + 1 * n.val = O.val; omega

/-! ## The accumulator at a point: the partial sums over the k axis's blocks -/

/-- Column 512 kb + kk of the contracted axis (taken below 2048, which changes nothing for kb below 4). -/
def kcol (kb : ℕ) (kk : Fin 512) : Fin 2048 := ⟨(512 * kb + kk.val) % 2048, Nat.mod_lt _ (by decide)⟩

/-- What block kb of the contracted axis adds to entry (R, O): the sum over its 512 columns of x(R, ·) * weight(O, ·). -/
def part (c : Dev nD) (R : Fin 4096) (O : Fin 8192) (kb : ℕ) : EReal :=
  ∑ kk : Fin 512, xarr V c (ix2 R (kcol kb kk)) * w2arr V c (ix2 O (kcol kb kk))

/-- The product of the two blocks at point t = 16 i + 4 j + k, entry (r, n), is what block k adds to entry
    (1024 i + r, 2048 j + n). -/
theorem blockprod (c : Dev nD) (t : Fin cfg1.N) (k : ℕ) (hk : t.val % 4 = k) (R : Fin 4096) (O : Fin 8192)
    (r : Fin 1024) (n : Fin 2048)
    (hR : R.val = 1024 * (t.val / 16) + r.val) (hO : O.val = 2048 * (t.val / 4 % 4) + n.val)
    (xb : FVec Ideal S1024x512 .bf16) (wb : FVec Ideal S2048x512 .bf16)
    (hxb : xb = iblk1 V c 0 t) (hwb : wb = iblk1 V c 1 t) :
    (∑ kk : Fin 512, xb (ix2 r kk) * wb (ix2 n kk)) = part V c R O k := by
  subst hxb hwb
  unfold part
  refine Finset.sum_congr rfl fun kk _ => ?_
  have hK : (kcol k kk).val = 512 * (t.val % 4) + kk.val := by
    show (512 * k + kk.val) % 2048 = _
    have := kk.isLt
    omega
  rw [xblk_apply V c t r kk R _ hR hK, wblk_apply V c t n kk O _ hO hK]

/-- THE INVARIANT: at point t = 16 i + 4 j + k the accumulator's entry (r, n) is the sum of what blocks 0 … k add to
    entry (1024 i + r, 2048 j + n). By induction on k: the point with k = 0 starts from zero, every other adds its block's
    product to what the point before left. -/
theorem acc1_apply (c : Dev nD) (R : Fin 4096) (O : Fin 8192) (r : Fin 1024) (n : Fin 2048) :
    ∀ (k : ℕ) (t : Fin cfg1.N), t.val % 4 = k → R.val = 1024 * (t.val / 16) + r.val → O.val = 2048 * (t.val / 4 % 4) + n.val →
      acc1 V c t.val t.isLt (ix2 r n) = ∑ kb ∈ Finset.range (k + 1), part V c R O kb
  | 0, t, hk, hR, hO => by
    rw [acc1_reset V c t hk]
    refine (pay2_apply _ _ _ r n).trans ?_
    rw [pay1_apply, zero_add, Finset.sum_range_one]
    exact blockprod V c t 0 hk R O r n hR hO _ _ rfl rfl
  | k + 1, t, hk, hR, hO => by
    have hN : cfg1.N = 64 := N_1
    have ht : t.val < 64 := hN ▸ t.isLt
    have ih : acc1 V c (t.val - 1) (Nat.lt_of_le_of_lt (Nat.sub_le _ _) t.isLt) (ix2 r n)
        = ∑ kb ∈ Finset.range (k + 1), part V c R O kb :=
      acc1_apply c R O r n k ⟨t.val - 1, Nat.lt_of_le_of_lt (Nat.sub_le _ _) t.isLt⟩
        (by show (t.val - 1) % 4 = k; omega)
        (by show R.val = 1024 * ((t.val - 1) / 16) + r.val; omega)
        (by show O.val = 2048 * ((t.val - 1) / 4 % 4) + n.val; omega)
    rw [acc1_step V c t (by omega)]
    refine (pay2_apply _ _ _ r n).trans ?_
    rw [ih, Finset.sum_range_succ _ (k + 1)]
    exact congrArg _ (blockprod V c t (k + 1) hk R O r n hR hO _ _ rfl rfl)

/-! ## The four blocks' sums are the one sum over the contracted axis -/

theorem sum_parts (c : Dev nD) (R : Fin 4096) (O : Fin 8192) :
    ∑ kb ∈ Finset.range 4, part V c R O kb = ∑ k : Fin 2048, xarr V c (ix2 R k) * w2arr V c (ix2 O k) := by
  have e : (∑ k : Fin 2048, xarr V c (ix2 R k) * w2arr V c (ix2 O k))
      = ∑ p : Fin 4 × Fin 512, xarr V c (ix2 R (finProdFinEquiv p)) * w2arr V c (ix2 O (finProdFinEquiv p)) :=
    (Equiv.sum_comp (finProdFinEquiv (m := 4) (n := 512)) fun k : Fin 2048 => xarr V c (ix2 R k) * w2arr V c (ix2 O k)).symm
  rw [e, Fintype.sum_prod_type, Finset.sum_range]
  refine Finset.sum_congr rfl fun kb _ => ?_
  unfold part
  refine Finset.sum_congr rfl fun kk _ => ?_
  have hc : kcol kb.val kk = finProdFinEquiv (kb, kk) := Fin.ext (by
    rw [finProdFinEquiv_apply_val]
    show (512 * kb.val + kk.val) % 2048 = kk.val + 512 * kb.val
    have := kb.isLt
    have := kk.isLt
    omega)
  rw [hc]

/-! ## From the written blocks to the array -/

/-- Entry (R, O) of what the call computes: row R of x times row O of the weight, plus the bias at O. -/
def outAt (c : Dev nD) (R : Fin 4096) (O : Fin 8192) : EReal :=
  (∑ k : Fin 2048, xarr V c (ix2 R k) * w2arr V c (ix2 O k)) + barr V c (ix2 (0 : Fin 1) O)

/-- The whole array the call computes. -/
def outArr (c : Dev nD) : FVec Ideal S4096x8192 .f32 := fun i => outAt V c (i 0) (i 1)

/-- A point with k = 3 writes back its block of that array: the accumulator there holds all four blocks' sums. -/
theorem flushed1_eq (c : Dev nD) (t : Fin cfg1.N) (hf : (cfg1.win 3).flush t = true) :
    (dat1 V c).flushed 3 t = ((cfg1.win 3).blk t).view.read (Elt Ideal) (outArr V c) := by
  have h3 : t.val % 4 = 3 := (flush1_3 t).mp hf
  obtain ⟨-, -, -, -, -, -, e6, e7⟩ := blockIdx1 t
  have hN : cfg1.N = 64 := N_1
  have ht : t.val < 64 := hN ▸ t.isLt
  show (cfg1.win 3).cut (grid1.coords t) ((dat1 V c).after 3 t) = _
  rw [after1_3]
  funext y
  obtain ⟨r, n, rfl⟩ : ∃ (r : Fin 1024) (n : Fin 2048), y = ix2 r n := ⟨y 0, y 1, eq_ix2 y⟩
  have hr := r.isLt
  have hn := n.isLt
  show k1_pay3 (acc1 V c t.val t.isLt) (iblk1 V c 2 t) (ix2 r n) = outArr V c (((cfg1.win 3).blk t).view.emb (ix2 r n))
  have hRb : 1024 * (t.val / 16) + r.val < 4096 := by omega
  have hOb : 2048 * (t.val / 4 % 4) + n.val < 8192 := by omega
  have hidx : ((cfg1.win 3).blk t).view.emb (ix2 r n) = ix2 (⟨_, hRb⟩ : Fin 4096) (⟨_, hOb⟩ : Fin 8192) :=
    funext fun a => Fin.ext (by
      match a with
      | ⟨0, _⟩ => show win1_3.index t (0 : Fin 2) * 1024 + 1 * r.val = 1024 * (t.val / 16) + r.val; omega
      | ⟨1, _⟩ => show win1_3.index t (1 : Fin 2) * 2048 + 1 * n.val = 2048 * (t.val / 4 % 4) + n.val; omega)
  rw [hidx]
  refine (pay3_apply _ _ r n).trans ?_
  rw [acc1_apply V c ⟨_, hRb⟩ ⟨_, hOb⟩ r n 3 t h3 rfl rfl, bblk_apply V c t n ⟨_, hOb⟩ rfl, sum_parts]
  rfl

/-- An index of the array is in point t's block iff each coordinate is in the block's range on its axis. -/
theorem mem_blk1_3 (t : Fin cfg1.N) (i : S4096x8192.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v6).slice (win1_3.rect t)).set ↔ _
  rw [View.set_slice_whole, Rect.mem_set_unit]
  exact Iff.rfl

/-- Every entry (R, O) is in the block of the point with i = R / 1024, j = O / 2048 and k = 3, which writes back. -/
theorem cover1_3 (i : S4096x8192.Idx) :
    ∃ t : Fin cfg1.N, (cfg1.win 3).flush t = true ∧ i ∈ ((cfg1.win 3).blk t).view.set := by
  have hN : cfg1.N = 64 := N_1
  have h0 : (i 0).val < 4096 := (i 0).isLt
  have h1 : (i 1).val < 8192 := (i 1).isLt
  have hb : 16 * ((i 0).val / 1024) + 4 * ((i 1).val / 2048) + 3 < cfg1.N := by rw [hN]; omega
  obtain ⟨-, -, -, -, -, -, e6, e7⟩ := blockIdx1 ⟨_, hb⟩
  refine ⟨⟨_, hb⟩, (flush1_3 _).mpr (by show (16 * ((i 0).val / 1024) + 4 * ((i 1).val / 2048) + 3) % 4 = 3; omega), ?_⟩
  rw [mem_blk1_3]
  have e6' : win1_3.index ⟨_, hb⟩ (0 : Fin 2) = (16 * ((i 0).val / 1024) + 4 * ((i 1).val / 2048) + 3) / 16 := e6
  have e7' : win1_3.index ⟨_, hb⟩ (1 : Fin 2) = (16 * ((i 0).val / 1024) + 4 * ((i 1).val / 2048) + 3) / 4 % 4 := e7
  intro a
  match a with
  | ⟨0, _⟩ =>
    show win1_3.index ⟨_, hb⟩ (0 : Fin 2) * 1024 ≤ (i 0).val ∧ (i 0).val < win1_3.index ⟨_, hb⟩ (0 : Fin 2) * 1024 + 1024
    omega
  | ⟨1, _⟩ =>
    show win1_3.index ⟨_, hb⟩ (1 : Fin 2) * 2048 ≤ (i 1).val ∧ (i 1).val < win1_3.index ⟨_, hb⟩ (1 : Fin 2) * 2048 + 2048
    omega

/-- So the array the call writes is that array. -/
theorem yarr_eq (c : Dev nD) : yarr V c = outArr V c :=
  (dat1 V c).arrAt_eq_of_cover 3 (outArr V c) (fun t hf => flushed1_eq V c t hf) cover1_3

end Mm

/-- Entry (r, o) of the written array. -/
theorem yarr_apply (c : Dev nD) (r : Fin 4096) (o : Fin 8192) :
    yarr V c (ix2 r o)
      = (∑ k : Fin 2048, xarr V c (ix2 r k) * w2arr V c (ix2 o k)) + barr V c (ix2 (0 : Fin 1) o) := by
  rw [Mm.yarr_eq]
  rfl

end Cert.KernelIdeal.Hand

end
-- ==== Proof.KI.ValK.lean ====
/-
  The result array @main returns with, read at an index: the two calls' output arrays (Val0, Val1) joined through the
  reshapes between them.  Row p * 2048 + r of the flattened input is row (p, r) of x; entry (o, k) of the reshaped codes is
  the code at flat position o * 2048 + k, and block (o, kb) of the reshaped scales the scale at o * 32 + kb; so the result at
  (p, r, o) is the specification's.
-/
import proofs.«408300_j9380208575266_3_alg».proof.Proof.KI.Run
import proofs.«408300_j9380208575266_3_alg».proof.Proof.KI.Val0
import proofs.«408300_j9380208575266_3_alg».proof.Proof.KI.Val1
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

open Idealize.ShloMosaic.StableHlo
variable (m : (ℓ : Loc nD τ sig) → Buf (Elt Ideal) ℓ)

/-- The launch contents of the four arguments, as arrays. -/
abbrev xin (c : Dev nD) : FVec Ideal S2x2048x2048 .f32 := m ((c.tc : Thread nD τ).loc main_arg0)
abbrev qin (c : Dev nD) : IVec S16777216 32 := m ((c.tc : Thread nD τ).loc main_arg1)
abbrev sin' (c : Dev nD) : FVec Ideal S262144 .f32 := m ((c.tc : Thread nD τ).loc main_arg2)
abbrev bin (c : Dev nD) : FVec Ideal S8192 .f32 := m ((c.tc : Thread nD τ).loc main_arg3)

/-- The first two reshapes write neither x nor the bias. -/
theorem W1_arg0 (c : Dev nD) : W1 m c (Proc.devRef .tc main_arg0) = xin m c := by
  show StableHlo.after hostOps0 (W0 m c) (Proc.devRef .tc main_arg0) = _
  after_results
theorem W1_arg3 (c : Dev nD) : W1 m c (Proc.devRef .tc main_arg3) = bin m c := by
  show StableHlo.after hostOps0 (W0 m c) (Proc.devRef .tc main_arg3) = _
  after_results

/-- The reshaped codes: entry (o, k) is the code at flat position o * 2048 + k. -/
theorem qarr_apply (c : Dev nD) (o : Fin 8192) (k : Fin 2048) :
    qarr (V1 m) c (ix2 o k) = qin m c (ix1 (⟨o.val * 2048 + k.val, by have := o.isLt; have := k.isLt; omega⟩ : Fin 16777216)) := by
  have e : (V1 m c main_v0 : IVec S8192x2048 32)
      = shapeCast S8192x2048 (qin m c) shapeCasts_S16777216_S8192x2048 := by
    show StableHlo.after hostOps0 (W0 m c) (Proc.devRef .tc main_v0) = _
    after_results; rfl
  show (V1 m c main_v0 : IVec S8192x2048 32) (ix2 o k) = _
  rw [e]
  exact shapeCast_apply _ _ _ _ (by rw [Shape.rowMajor_val_one, Shape.rowMajor_val_two]; rfl)

/-- The reshaped scales: entry (o, kb) is the scale at o * 32 + kb. -/
theorem sarr_apply (c : Dev nD) (o : Fin 8192) (kb : Fin 32) :
    sarr (V1 m) c (ix2 o kb) = sin' m c (ix1 (⟨o.val * 32 + kb.val, by have := o.isLt; have := kb.isLt; omega⟩ : Fin 262144)) := by
  have e : (V1 m c main_v1 : FVec Ideal S8192x32 .f32)
      = shapeCast S8192x32 (sin' m c) shapeCasts_S262144_S8192x32 := by
    show StableHlo.after hostOps0 (W0 m c) (Proc.devRef .tc main_v1) = _
    after_results; rfl
  show (V1 m c main_v1 : FVec Ideal S8192x32 .f32) (ix2 o kb) = _
  rw [e]
  exact shapeCast_apply _ _ _ _ (by rw [Shape.rowMajor_val_one, Shape.rowMajor_val_two]; rfl)

/-- The dequantised weight as the second call finds it is what the first call left. -/
theorem w2arr_eq (c : Dev nD) : w2arr (V3 m) c = warr (V1 m) c := by
  show StableHlo.after hostOps1 (W2 m c) (Proc.devRef .tc main_v2) = _
  after_results
  exact W2_arr m c 2

/-- The second call's left operand: row p * 2048 + r is row (p, r) of x (the conversion is the identity on extended reals). -/
theorem xarr_apply (c : Dev nD) (p : Fin 2) (r : Fin 2048) (k : Fin 2048) :
    xarr (V3 m) c (ix2 (⟨p.val * 2048 + r.val, by have := p.isLt; have := r.isLt; omega⟩ : Fin 4096) k) = xin m c (ix3 p r k) := by
  have e : (V3 m c main_v4 : FVec Ideal S4096x2048 .bf16)
      = truncf .bf16 (shapeCast S4096x2048 (xin m c) shapeCasts_S2x2048x2048_S4096x2048) bitsLt_bf16_f32 := by
    show StableHlo.after hostOps1 (W2 m c) (Proc.devRef .tc main_v4) = _
    after_results
    rw [W2_of_ne m c main_arg0 (by decide), W1_arg0]; rfl
  show (V3 m c main_v4 : FVec Ideal S4096x2048 .bf16) _ = _
  rw [e, truncf_apply]
  exact shapeCast_apply _ _ _ _ (by rw [Shape.rowMajor_val_three, Shape.rowMajor_val_two]; rfl)

/-- The second call's bias row: entry (0, o) is the bias at o. -/
theorem barr_apply (c : Dev nD) (o : Fin 8192) :
    barr (V3 m) c (ix2 (0 : Fin 1) o) = bin m c (ix1 o) := by
  have e : (V3 m c main_v5 : FVec Ideal S1x8192 .f32)
      = shapeCast S1x8192 (bin m c) shapeCasts_S8192_S1x8192 := by
    show StableHlo.after hostOps1 (W2 m c) (Proc.devRef .tc main_v5) = _
    after_results
    rw [W2_of_ne m c main_arg3 (by decide), W1_arg3]; rfl
  show (V3 m c main_v5 : FVec Ideal S1x8192 .f32) _ = _
  rw [e]
  exact shapeCast_apply _ _ _ _ (by rw [Shape.rowMajor_val_one, Shape.rowMajor_val_two]; show o.val = 0 * 8192 + o.val; omega)

/-- The result array at the last boundary is the last reshape of what the second call wrote. -/
theorem out_eq (c : Dev nD) : (W5 m c (Proc.devRef .tc main_v7) : FVec Ideal S2x2048x8192 .f32)
    = shapeCast S2x2048x8192 (yarr (V3 m) c) shapeCasts_S4096x8192_S2x2048x8192 := by
  show StableHlo.after hostOps2 (W4 m c) (Proc.devRef .tc main_v7) = _
  after_results
  rw [show W4 m c (Proc.devRef .tc main_v6) = yarr (V3 m) c from W4_arr m c 3]; rfl

/-- THE KERNEL'S VALUE: where every code is a word below 16, the result at (p, r, o) is the specification's. -/
theorem kernel_value (c : Dev nD) (hq : Cert.Spec.CodesInRange (qin m c)) (p : Fin 2) (r : Fin 2048) (o : Fin 8192) :
    (W5 m c (Proc.devRef .tc main_v7) : FVec Ideal S2x2048x8192 .f32) (ix3 p r o)
      = Cert.Spec.resultAt (xin m c) (qin m c) (sin' m c) (bin m c) p r o := by
  rw [out_eq]
  rw [shapeCast_apply (yarr (V3 m) c) shapeCasts_S4096x8192_S2x2048x8192 (ix3 p r o)
    (ix2 (⟨p.val * 2048 + r.val, by have := p.isLt; have := r.isLt; omega⟩ : Fin 4096) o)
    (by rw [Shape.rowMajor_val_three, Shape.rowMajor_val_two]; rfl)]
  rw [yarr_apply, barr_apply, w2arr_eq]
  unfold Cert.Spec.resultAt
  congr 1
  refine Finset.sum_congr rfl fun k _ => ?_
  rw [xarr_apply, warr_apply (V1 m) c (fun o k => by rw [qarr_apply]; exact hq _) o k, qarr_apply, sarr_apply]
  rfl

end Cert.KernelIdeal.Hand

end
-- ==== Proof.RefRun.lean ====
/-
  The reference program's run, read back as one pure term of its arguments.

  The program is a list of host operations, each writing one buffer from earlier ones.  Running the list in order from
  any memory leaves in the result buffer the operations' composition applied to the arguments' contents, and leaves
  the arguments as they were.  The composition is named stage by stage: the code words cut into blocks of 64, a
  negative word moved up by sixteen, the table of sixteen levels read at each word, each block's scale repeated along
  the block, the product laid out as a matrix of 8192 rows of 2048, the contraction of the input's last axis with the
  matrix's rows, and the bias added along the last axis.
-/
import proofs.«408300_j9380208575266_3_alg».proof.Proof.Gen.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-! ## The stages of the composed term -/

/-- The table of the sixteen levels. -/
def table : FVec F S16 .f32 := fun i => FloatOps.ofBits .f32 (lit0 (S16.rowMajor i))

/-- The code words as 262144 blocks of 64 (row-major: block `a`, lane `l` is word `a * 64 + l`). -/
def blocks (q : IVec S16777216 32) : IVec S262144x64 32 :=
  shapeCast S262144x64 q shapeCasts_S16777216_S262144x64

/-- The table index each word names: a negative word counts from the table's end, so sixteen is added to it; any
    other word is kept. -/
def codes (q : IVec S16777216 32) : IVec S262144x64 32 :=
  select (cmpi .slt (blocks q) (broadcastInDim S262144x64 ![] bcast_S_S262144x64 (constantI S_ 32 0#32)))
    (addi (blocks q) (broadcastInDim S262144x64 ![] bcast_S_S262144x64 (constantI S_ 32 16#32)))
    (blocks q)

/-- The level at each word: the table gathered at the indices (each index a vector of one coordinate). -/
def levels (q : IVec S16777216 32) : FVec F S262144x64 .f32 :=
  Host.gather gather_S16_S262144x64x1_S262144x64_n_0_n_n_0_2_1 (table (F := F))
    (broadcastInDim S262144x64x1 ![0, 1] bcast_S262144x64_S262144x64x1_0_1 (codes q))

/-- Each block's scale, repeated along the block's 64 lanes. -/
def scales (s : FVec F S262144 .f32) : FVec F S262144x64 .f32 :=
  broadcastInDim S262144x64 ![0, 1] bcast_S262144x1_S262144x64_0_1
    (broadcastInDim S262144x1 ![0] bcast_S262144_S262144x1_0 s)

/-- The weight matrix: level times scale, laid out as 8192 rows of 2048 (row-major, so row `o` is the 32 blocks
    `o * 32 … o * 32 + 31`). -/
def weights (q : IVec S16777216 32) (s : FVec F S262144 .f32) : FVec F S8192x2048 .f32 :=
  shapeCast S8192x2048 (mulf (levels (F := F) q) (scales s)) shapeCasts_S262144x64_S8192x2048

/-- The bias, repeated over the two leading axes. -/
def bias (b : FVec F S8192 .f32) : FVec F S2x2048x8192 .f32 :=
  broadcastInDim S2x2048x8192 ![0, 1, 2] bcast_S1x1x8192_S2x2048x8192_0_1_2
    (broadcastInDim S1x1x8192 ![2] bcast_S8192_S1x1x8192_2 b)

/-- The program's result as a function of its four arguments: the input contracted with the weight matrix along the
    input's last axis and the matrix's rows, plus the bias. -/
def out (x : FVec F S2x2048x2048 .f32) (q : IVec S16777216 32) (s : FVec F S262144 .f32) (b : FVec F S8192 .f32) :
    FVec F S2x2048x8192 .f32 :=
  addf (Host.dotGeneral dot_S2x2048x2048_S8192x2048_S2x2048x8192_2_1_01_0_n_n none x (weights q s)) (bias b)

/-! ## The program as a list of operations -/

/-- @main's 19 operations, in order. -/
abbrev ops : List (HloOp τ sig (Elt F)) :=
  [ nullary main_cst (fun i => FloatOps.ofBits .f32 (lit0 (S16.rowMajor i))),
    reshape main_arg1 main_v0 rfl shapeCasts_S16777216_S262144x64,
    nullary main_c (constantI S_ 32 0#32),
    unary main_c main_v1 (broadcastInDim S262144x64 ![] bcast_S_S262144x64 : (⟨S_, .i32⟩ : BufTy).Contents (Elt F) → (⟨S262144x64, .i32⟩ : BufTy).Contents (Elt F)),
    binary main_v0 main_v1 main_v2 (cmpi .slt : (⟨S262144x64, .i32⟩ : BufTy).Contents (Elt F) → (⟨S262144x64, .i32⟩ : BufTy).Contents (Elt F) → (⟨S262144x64, .i1⟩ : BufTy).Contents (Elt F)),
    nullary main_c_0 (constantI S_ 32 16#32),
    unary main_c_0 main_v3 (broadcastInDim S262144x64 ![] bcast_S_S262144x64 : (⟨S_, .i32⟩ : BufTy).Contents (Elt F) → (⟨S262144x64, .i32⟩ : BufTy).Contents (Elt F)),
    binary main_v0 main_v3 main_v4 (addi : (⟨S262144x64, .i32⟩ : BufTy).Contents (Elt F) → (⟨S262144x64, .i32⟩ : BufTy).Contents (Elt F) → (⟨S262144x64, .i32⟩ : BufTy).Contents (Elt F)),
    ternary main_v2 main_v4 main_v0 main_v5 (select : (⟨S262144x64, .i1⟩ : BufTy).Contents (Elt F) → (⟨S262144x64, .i32⟩ : BufTy).Contents (Elt F) → (⟨S262144x64, .i32⟩ : BufTy).Contents (Elt F) → (⟨S262144x64, .i32⟩ : BufTy).Contents (Elt F)),
    unary main_v5 main_v6 (broadcastInDim S262144x64x1 ![0, 1] bcast_S262144x64_S262144x64x1_0_1 : (⟨S262144x64, .i32⟩ : BufTy).Contents (Elt F) → (⟨S262144x64x1, .i32⟩ : BufTy).Contents (Elt F)),
    binary main_cst main_v6 main_v7 ((fun x i => Host.gather gather_S16_S262144x64x1_S262144x64_n_0_n_n_0_2_1 x i) : (⟨S16, .f32⟩ : BufTy).Contents (Elt F) → (⟨S262144x64x1, .i32⟩ : BufTy).Contents (Elt F) → (⟨S262144x64, .f32⟩ : BufTy).Contents (Elt F)),
    unary main_arg2 main_v8 (broadcastInDim S262144x1 ![0] bcast_S262144_S262144x1_0 : (⟨S262144, .f32⟩ : BufTy).Contents (Elt F) → (⟨S262144x1, .f32⟩ : BufTy).Contents (Elt F)),
    unary main_v8 main_v9 (broadcastInDim S262144x64 ![0, 1] bcast_S262144x1_S262144x64_0_1 : (⟨S262144x1, .f32⟩ : BufTy).Contents (Elt F) → (⟨S262144x64, .f32⟩ : BufTy).Contents (Elt F)),
    binary main_v7 main_v9 main_v10 (mulf : (⟨S262144x64, .f32⟩ : BufTy).Contents (Elt F) → (⟨S262144x64, .f32⟩ : BufTy).Contents (Elt F) → (⟨S262144x64, .f32⟩ : BufTy).Contents (Elt F)),
    reshape main_v10 main_v11 rfl shapeCasts_S262144x64_S8192x2048,
    binary main_arg0 main_v11 main_v12 ((fun l r => Host.dotGeneral dot_S2x2048x2048_S8192x2048_S2x2048x8192_2_1_01_0_n_n none l r) : (⟨S2x2048x2048, .f32⟩ : BufTy).Contents (Elt F) → (⟨S8192x2048, .f32⟩ : BufTy).Contents (Elt F) → (⟨S2x2048x8192, .f32⟩ : BufTy).Contents (Elt F)),
    unary main_arg3 main_v13 (broadcastInDim S1x1x8192 ![2] bcast_S8192_S1x1x8192_2 : (⟨S8192, .f32⟩ : BufTy).Contents (Elt F) → (⟨S1x1x8192, .f32⟩ : BufTy).Contents (Elt F)),
    unary main_v13 main_v14 (broadcastInDim S2x2048x8192 ![0, 1, 2] bcast_S1x1x8192_S2x2048x8192_0_1_2 : (⟨S1x1x8192, .f32⟩ : BufTy).Contents (Elt F) → (⟨S2x2048x8192, .f32⟩ : BufTy).Contents (Elt F)),
    binary main_v12 main_v14 main_v15 (addf : (⟨S2x2048x8192, .f32⟩ : BufTy).Contents (Elt F) → (⟨S2x2048x8192, .f32⟩ : BufTy).Contents (Elt F) → (⟨S2x2048x8192, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., nullary_bufs_sub .., unary_bufs_sub .., binary_bufs_sub ..,
   nullary_bufs_sub .., unary_bufs_sub .., binary_bufs_sub .., ternary_bufs_sub .., unary_bufs_sub ..,
   binary_bufs_sub .., unary_bufs_sub .., unary_bufs_sub .., binary_bufs_sub .., reshape_bufs_sub ..,
   binary_bufs_sub .., unary_bufs_sub .., unary_bufs_sub .., binary_bufs_sub ..⟩

/-! ## The run -/

/-- On every device, for any float values, from any memory with zero counters: every weakly fair execution of @main
    terminates with the result buffer at `out` of the arguments' contents and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v15).trans (by after_results <;> rfl),
      (h c main_arg0).trans (by after_results),
      (h c main_arg1).trans (by after_results),
      (h c main_arg2).trans (by after_results),
      (h c main_arg3).trans (by after_results)⟩)
    (run_seq scopedRefs_eq scopedSems_eq defs main (fun _ => ops) main_eq (fun _ => ops_sub) m ρ)

end Cert.ReferenceIdeal.Hand

end
-- ==== Proof.RefVal.lean ====
/-
  The reference's result read at an index.

  Each stage of the composed term is read at an index of its shape: a reshape keeps the row-major position, a
  broadcast forgets the new axes, the gather reads the table at the (clamped) index, the contraction is a sum over the
  contracted coordinate.  A code word below sixteen is not negative, so the select keeps it and the clamp is the
  identity: the gathered value is the level the word names.  Put together, entry (o, k) of the weight matrix is the
  level of word o * 2048 + k times the scale of block o * 32 + k / 64, and the result at (p, r, o) is the sum over k of
  x (p, r, k) times that entry, plus the bias at o.
-/
import proofs.«408300_j9380208575266_3_alg».proof.Proof.RefRun
import proofs.«408300_j9380208575266_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace Cert.ReferenceIdeal.Hand

open Cert.ReferenceIdeal Cert.ReferenceIdeal.Facts₀ Idealize.ShloMosaic Idealize.ShloMosaic.ValueIdx
open scoped BigOperators

variable [Cert.ReferenceIdeal.Facts]

/-! ## Words below sixteen -/

/-- A word below sixteen is not negative. -/
theorem slt_zero_of_lt (w : BitVec 32) (h : w.toNat < 16) : IntOp.cmpi .slt w 0#32 = 0#1 := by
  have hi : w.toInt = (w.toNat : Int) := BitVec.toInt_eq_toNat_of_lt (by omega)
  unfold IntOp.cmpi
  show BitVec.ofBool (decide (w.toInt < (0#32 : BitVec 32).toInt)) = 0#1
  rw [hi]
  have : ¬ ((w.toNat : Int) < (0#32 : BitVec 32).toInt) := by
    simp
  rw [decide_eq_false this]
  rfl

/-- Read as a signed number it is itself. -/
theorem toInt_toNat_of_lt (w : BitVec 32) (h : w.toNat < 16) : w.toInt.toNat = w.toNat := by
  rw [BitVec.toInt_eq_toNat_of_lt (by omega)]
  exact Int.toNat_natCast _

/-- The two spellings of the table of levels agree. -/
theorem lit0_eq_tab : ∀ i : Fin 16, lit0 i = Cert.Spec.tab i := by decide

/-! ## The stages at an index -/

/-- Block `a`, lane `l` holds word `a * 64 + l`. -/
theorem blocks_apply (q : IVec S16777216 32) (a : Fin 262144) (l : Fin 64) :
    blocks q (ix2 a l) = q (ix1 ⟨a.val * 64 + l.val, by have := a.isLt; have := l.isLt; omega⟩) := by
  unfold blocks
  refine shapeCast_apply _ _ _ _ ?_
  rw [Shape.rowMajor_val_one, Shape.rowMajor_val_two]
  rfl

/-- A word below sixteen is its own table index. -/
theorem codes_apply (q : IVec S16777216 32) (a : Fin 262144) (l : Fin 64)
    (h : (q (ix1 ⟨a.val * 64 + l.val, by have := a.isLt; have := l.isLt; omega⟩)).toNat < 16) :
    codes q (ix2 a l) = q (ix1 ⟨a.val * 64 + l.val, by have := a.isLt; have := l.isLt; omega⟩) := by
  unfold codes
  rw [select_apply]
  show Scalar.select (IntOp.cmpi .slt (blocks q (ix2 a l)) 0#32) _ (blocks q (ix2 a l)) = _
  rw [blocks_apply, slt_zero_of_lt _ h, select_zero]

/-- The level at block `a`, lane `l` is the level word `a * 64 + l` names. -/
theorem levels_apply (q : IVec S16777216 32) (a : Fin 262144) (l : Fin 64)
    (h : (q (ix1 ⟨a.val * 64 + l.val, by have := a.isLt; have := l.isLt; omega⟩)).toNat < 16) :
    levels (F := Ideal) q (ix2 a l)
      = Cert.Spec.level (q (ix1 ⟨a.val * 64 + l.val, by have := a.isLt; have := l.isLt; omega⟩)) := by
  unfold levels
  refine (gather_take_apply (by decide) gather_S16_S262144x64x1_S262144x64_n_0_n_n_0_2_1_wf _ _ _).trans ?_
  have hidx : broadcastInDim S262144x64x1 ![0, 1] bcast_S262144x64_S262144x64x1_0_1 (codes q) (takeIdx (ix2 a l))
      = q (ix1 ⟨a.val * 64 + l.val, by have := a.isLt; have := l.isLt; omega⟩) := by
    refine (broadcastInDim_apply _ _ _ _ (ix2 a l) (fun d => match d with | ⟨0, _⟩ => rfl | ⟨1, _⟩ => rfl)).trans ?_
    exact codes_apply q a l h
  refine (congrArg (table (F := Ideal)) (congrArg ix1 (Fin.ext (b := ⟨_, h⟩) ?_))).trans ?_
  · show min (broadcastInDim S262144x64x1 ![0, 1] bcast_S262144x64_S262144x64x1_0_1 (codes q) (takeIdx (ix2 a l))).toInt.toNat (16 - 1) = _
    rw [hidx, toInt_toNat_of_lt _ h]
    exact Nat.min_eq_left (by omega)
  · unfold table Cert.Spec.level
    have e : (S16.rowMajor (ix1 (⟨_, h⟩ : Fin 16)) : Fin 16)
        = ⟨(q (ix1 ⟨a.val * 64 + l.val, by have := a.isLt; have := l.isLt; omega⟩)).toNat % 16, Nat.mod_lt _ (by decide)⟩ :=
      Fin.ext (by rw [Shape.rowMajor_val_one]; exact (Nat.mod_eq_of_lt h).symm)
    exact congrArg (Ideal.ofBits .f32) ((lit0_eq_tab _).trans (congrArg Cert.Spec.tab e))

/-- The scale at block `a`, whatever the lane. -/
theorem scales_apply (s : FVec Ideal S262144 .f32) (a : Fin 262144) (l : Fin 64) :
    scales s (ix2 a l) = s (ix1 a) := by
  unfold scales
  refine (broadcastInDim_apply _ _ _ _ (ix2 a (0 : Fin 1)) (fun d => match d with | ⟨0, _⟩ => rfl | ⟨1, _⟩ => rfl)).trans ?_
  exact broadcastInDim_apply _ _ _ _ (ix1 a) (fun d => match d with | ⟨0, _⟩ => rfl)

/-- The bias at the last coordinate. -/
theorem bias_apply (b : FVec Ideal S8192 .f32) (p : Fin 2) (r : Fin 2048) (o : Fin 8192) :
    bias b (ix3 p r o) = b (ix1 o) := by
  unfold bias
  refine (broadcastInDim_apply _ _ _ _ (ix3 (0 : Fin 1) (0 : Fin 1) o)
    (fun d => match d with | ⟨0, _⟩ => rfl | ⟨1, _⟩ => rfl | ⟨2, _⟩ => rfl)).trans ?_
  exact broadcastInDim_apply _ _ _ _ (ix1 o) (fun d => match d with | ⟨0, _⟩ => rfl)

/-- Entry (o, k) of the weight matrix: the level of word `o * 2048 + k` times the scale of block `o * 32 + k / 64`. -/
theorem weights_apply (q : IVec S16777216 32) (s : FVec Ideal S262144 .f32) (hq : Cert.Spec.CodesInRange q)
    (o : Fin 8192) (k : Fin 2048) : weights q s (ix2 o k) = Cert.Spec.weight q s o k := by
  have ho := o.isLt
  have hk := k.isLt
  unfold weights
  refine (shapeCast_apply _ _ _ (ix2 (⟨o.val * 32 + k.val / 64, by omega⟩ : Fin 262144) (⟨k.val % 64, by omega⟩ : Fin 64)) ?_).trans ?_
  · rw [Shape.rowMajor_val_two, Shape.rowMajor_val_two]
    show (o.val * 32 + k.val / 64) * 64 + k.val % 64 = o.val * 2048 + k.val
    omega
  · rw [mulf_apply, scales_apply, levels_apply _ _ _ (hq _)]
    unfold Cert.Spec.weight
    congr 3
    refine congrArg ix1 (Fin.ext ?_)
    show (o.val * 32 + k.val / 64) * 64 + k.val % 64 = o.val * 2048 + k.val
    omega

/-! ## The contraction and the whole result at an index -/

/-- The contraction at (p, r, o): the sum, over the contracted coordinate, of the products of the two entries. -/
theorem dot_apply (x : FVec Ideal S2x2048x2048 .f32) (W : FVec Ideal S8192x2048 .f32)
    (p : Fin 2) (r : Fin 2048) (o : Fin 8192) :
    Host.dotGeneral dot_S2x2048x2048_S8192x2048_S2x2048x8192_2_1_01_0_n_n none x W (ix3 p r o)
      = ∑ k : Fin 2048, x (ix3 p r k) * W (ix2 o k) := by
  show FloatOps.dotGeneral _ none _ x W (ix3 p r o) = _
  rw [Ideal.dotGeneral_apply,
    ← Equiv.sum_comp (contrEquiv1 dot_S2x2048x2048_S8192x2048_S2x2048x8192_2_1_01_0_n_n 2048 rfl rfl).symm]
  refine Finset.sum_congr rfl fun k _ => ?_
  have ck := contrEquiv1_symm_val dot_S2x2048x2048_S8192x2048_S2x2048x8192_2_1_01_0_n_n 2048 rfl rfl k
  have hl : dot_S2x2048x2048_S8192x2048_S2x2048x8192_2_1_01_0_n_n.lhsIdx (ix3 p r o)
      ((contrEquiv1 _ 2048 rfl rfl).symm k) = ix3 p r k := by
    funext ax; apply Fin.ext
    match ax with
    | ⟨0, _⟩ => simp [DotDims.lhsIdx, dot_S2x2048x2048_S8192x2048_S2x2048x8192_2_1_01_0_n_n]; rfl
    | ⟨1, _⟩ => simp [DotDims.lhsIdx, dot_S2x2048x2048_S8192x2048_S2x2048x8192_2_1_01_0_n_n]; rfl
    | ⟨2, _⟩ => simp [DotDims.lhsIdx, dot_S2x2048x2048_S8192x2048_S2x2048x8192_2_1_01_0_n_n]; exact ck
  have hr : dot_S2x2048x2048_S8192x2048_S2x2048x8192_2_1_01_0_n_n.rhsIdx (ix3 p r o)
      ((contrEquiv1 _ 2048 rfl rfl).symm k) = ix2 o k := by
    funext ax; apply Fin.ext
    match ax with
    | ⟨0, _⟩ => simp [DotDims.rhsIdx, dot_S2x2048x2048_S8192x2048_S2x2048x8192_2_1_01_0_n_n]; rfl
    | ⟨1, _⟩ => simp [DotDims.rhsIdx, dot_S2x2048x2048_S8192x2048_S2x2048x8192_2_1_01_0_n_n]; exact ck
  rw [hl, hr]

/-- THE RESULT AT (p, r, o), for codes below sixteen: the specification's value there. -/
theorem out_apply (x : FVec Ideal S2x2048x2048 .f32) (q : IVec S16777216 32) (s : FVec Ideal S262144 .f32)
    (b : FVec Ideal S8192 .f32) (hq : Cert.Spec.CodesInRange q) (p : Fin 2) (r : Fin 2048) (o : Fin 8192) :
    out x q s b (ix3 p r o) = Cert.Spec.resultAt x q s b p r o := by
  unfold out Cert.Spec.resultAt
  rw [addf_apply, dot_apply, bias_apply]
  refine congrArg (· + b (ix1 o)) (Finset.sum_congr rfl fun k _ => ?_)
  rw [weights_apply q s hq]

end Cert.ReferenceIdeal.Hand

end
-- ==== Proof.PreDecode.lean ====
/-
  What the precondition says of the codes: every one is a word below 16.

  The precondition is a conjunction of four bits; its last is the conjunction, over all positions, of "the code
  is at least 0" and "the code is below 16", both read as signed comparisons of 32-bit words.  If the whole bit is set
  then so is that last conjunct; a conjunction over all positions that is set is set at each position; and a word that is
  signed-nonnegative and signed-below 16 has an unsigned value below 16.
-/
import proofs.«408300_j9380208575266_3_alg».proof.Pre_finite_inputs
import proofs.«408300_j9380208575266_3_alg».proof.Proof.Gen.Pre_finite_inputs
import proofs.«408300_j9380208575266_3_alg».proof.Proof.Spec
import Idealize.ShloMosaic.Lib.ValueIdx
import Idealize.ShloMosaic.Lib.ReduceAll
import Idealize.ShloMosaic.Lib.StableHlo.Predicate

noncomputable section

namespace Cert.PreHand

open Idealize.ShloMosaic Idealize.ShloMosaic.ValueIdx Cert.Pre_finite_inputs

/-- A 32-bit word whose signed value is at least that of 0 and below that of 16 has unsigned value below 16:
    a word with its top bit set has a negative signed value, so the top bit is clear and the two values agree. -/
private theorem toNat_lt_sixteen (w : BitVec 32) (h0 : (0#32 : BitVec 32).toInt ≤ w.toInt)
    (h1 : w.toInt < (16#32 : BitVec 32).toInt) : w.toNat < 16 := by
  rw [show (0#32 : BitVec 32).toInt = 0 from by decide] at h0
  rw [show (16#32 : BitVec 32).toInt = 16 from by decide] at h1
  rw [BitVec.toInt_eq_toNat_cond] at h0 h1
  split at h0 <;> omega

/-- From the printed precondition holding (its one bit set) to the range of every code. -/
theorem codes_of_pre [Cert.Pre_finite_inputs.Facts] {F : FTy → Type} [FloatOps F]
    (x : FVec F S2x2048x2048 .f32) (q : IVec S16777216 32) (s : FVec F S262144 .f32) (b : FVec F S8192 .f32)
    (h : Cert.Pre_finite_inputs.fn (F := F) x q s b = fun _ => 1#1) : Cert.Spec.CodesInRange q := by
  intro i
  -- the precondition's one bit, as the conjunction of the three finiteness bits and the range bit
  have e := congrFun h ix0
  dsimp only [fn, fn_part1] at e
  -- a conjunction of bits is set only if each is: keep the last, the conjunction over all positions
  have eAll := (IntOp.andi_eq_one.1 e).2
  -- the scalar shape has exactly one index: an index is a function out of the empty set of axes
  haveI : Subsingleton S_.Idx := ⟨fun _ _ => funext fun d => d.elim0⟩
  -- a conjunction over all positions that is set is set at position i
  have ei := Host.reduce_andi_all _ _ _ _ ix0 eAll (ix1 i)
  -- at position i it is the conjunction of the two comparisons
  obtain ⟨hge, hlt⟩ := IntOp.andi_eq_one.1 ei
  -- each comparison is signed, against the constant 0 resp. 16 read at position i
  have h0 : (0#32 : BitVec 32).toInt ≤ (q (ix1 i)).toInt := IntOp.cmpi_sge.1 hge
  have h1 : (q (ix1 i)).toInt < (16#32 : BitVec 32).toInt := IntOp.cmpi_slt.1 hlt
  exact toNat_lt_sixteen _ h0 h1

end Cert.PreHand

end
-- ==== Proof.lean ====
/-
  The certificate: a linear layer y = x · Wᵀ + bias whose weight W is stored as 4-bit codes with one scale per block of 64
  entries, computed by two kernels (a dequantisation that looks each code's level up by a chain of sixteen selects and
  multiplies by the block's scale, then a matrix product accumulated over four blocks of the contracted axis) against a
  reference that gathers the levels from a table and contracts in one sum.

  The claim holds where every code is a word in 0..15: there the kernel's clip of the code and the reference's reading of a
  negative index from the table's end are both the identity, the chain of selects is the table lookup, a change of float
  format is the identity on extended reals, and the four partial sums regroup into the one sum by associativity and
  commutativity of addition alone (no finiteness is used).

  The frames of the two kernel programs (word level and idealized) are the run of @main through its five items; the
  reference's frame is its run with the result dropped.
-/
import proofs.«408300_j9380208575266_3_alg».proof.Defs
import proofs.«408300_j9380208575266_3_alg».proof.Proof.KB.Run
import proofs.«408300_j9380208575266_3_alg».proof.Proof.KI.Run
import proofs.«408300_j9380208575266_3_alg».proof.Proof.KI.ValK
import proofs.«408300_j9380208575266_3_alg».proof.Proof.RefRun
import proofs.«408300_j9380208575266_3_alg».proof.Proof.RefVal
import proofs.«408300_j9380208575266_3_alg».proof.Proof.PreDecode
import proofs.«408300_j9380208575266_3_alg».proof.Proof.Spec

noncomputable section

open Idealize.ShloMosaic Idealize.ShloMosaic.TcCoe Idealize.SL.Sem Idealize.ShloMosaic.ValueIdx

namespace Cert.Proof

/-- The word-level kernel program runs and leaves its arguments as launched. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the specification's result array of the (agreeing) arguments. -/
theorem algebraic : Cert.algebraic_KernelIdeal_ReferenceIdeal := by
  intro m ρ m' ρ' hpre hagree
  refine ⟨fun c => Cert.Spec.result (Cert.KernelIdeal.Hand.xin m c) (Cert.KernelIdeal.Hand.qin m c)
      (Cert.KernelIdeal.Hand.sin' m c) (Cert.KernelIdeal.Hand.bin m c), ?_, ?_⟩
  · refine (θ_run Cert.KernelIdeal.defs _ _).mono (fun _ h c => ⟨(h c).1.trans ?_, (h c).2⟩)
      (Cert.KernelIdeal.Hand.run_value (F := Ideal) m ρ)
    funext j
    rw [eq_ix3 j]
    exact Cert.KernelIdeal.Hand.kernel_value m c (Cert.PreHand.codes_of_pre _ _ _ _ (hpre c)) _ _ _
  · refine (θ_run Cert.ReferenceIdeal.defs _ _).mono (fun _ h c => ⟨(h c).1.trans ?_, (h c).2⟩)
      (Cert.ReferenceIdeal.Hand.run (F := Ideal) m' ρ')
    rw [(hagree c).1, (hagree c).2.1, (hagree c).2.2.1, (hagree c).2.2.2]
    funext j
    rw [eq_ix3 j]
    exact Cert.ReferenceIdeal.Hand.out_apply _ _ _ _ (Cert.PreHand.codes_of_pre _ _ _ _ (hpre c)) _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
